-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel

variable [Facts]

def fn {F : FTy → Type} [FloatOps F] (main_arg0 : FVec F S32x1024x768 .f32) (main_arg1 : FVec F S32x1024x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S32x1024x768 .f32 := Host.absf main_arg1
  let main_cst_0 : FVec F S_ .f32 := constant S_ .f32 0x7F800000#32
  let main_v5 : FVec F S32x1024x768 .f32 := broadcastInDim S32x1024x768 ![] bcast_S_S32x1024x768 main_cst_0
  let main_v6 : IVec S32x1024x768 1 := cmpf .olt main_v4 main_v5
  let main_c_1 : IVec S_ 1 := constantI S_ 1 1#1
  let main_v7 : IVec S_ 1 := (fun x v => Host.reduce IntOp.andi x v reducesTo_S32x1024x768_S_d0_1_2 h_S_) main_v6 main_c_1
  let main_v8 : IVec S_ 1 := andi main_v3 main_v7
  main_v8
-- ==== Kernel.lean ====
abbrev S32x1024x768 : Shape := ⟨3, ![32, 1024, 768]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩
abbrev S32x8x128 : Shape := ⟨3, ![32, 8, 128]⟩
abbrev S1x512x768 : Shape := ⟨3, ![1, 512, 768]⟩
abbrev S1x8x128 : Shape := ⟨3, ![1, 8, 128]⟩
abbrev S512x768 : Shape := ⟨2, ![512, 768]⟩
abbrev S768x512 : Shape := ⟨2, ![768, 512]⟩
abbrev S1024x512 : Shape := ⟨2, ![1024, 512]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 9
  | .vmem => 18
  | .smem => 0
  | _ => 0

abbrev bufTy : (tb : Table) → Fin (tcTables nBuf tb) → BufTy
  | .hbm, ⟨0, _⟩ => ⟨S32x1024x768, .f32⟩
  | .hbm, ⟨1, _⟩ => ⟨S32x1024x768, .f32⟩
  | .hbm, ⟨2, _⟩ => ⟨S32x1024x768, .bf16⟩
  | .hbm, ⟨3, _⟩ => ⟨S32x1024x768, .bf16⟩
  | .hbm, ⟨4, _⟩ => ⟨S32x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .f32⟩
  | .local _ .vmem, ⟨5, _⟩ => ⟨S1x1024x768, .f32⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S1x512x768, .bf16⟩
  | .local _ .vmem, ⟨13, _⟩ => ⟨S1x512x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x8x128, .f32⟩
  | .local _ .vmem, ⟨17, _⟩ => ⟨S1x8x128, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![32, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  bitsLt_bf16_f32 : FTy.bits .bf16 < FTy.bits .f32
  shapeCasts_S1024x768_S1x1024x768 : S1024x768.ShapeCasts S1x1024x768
  packedbf16_S1x1024x768_S1x1024x768_0_0_0 : (Rect.unit (s := S1x1024x768) ![0, 0, 0] S1x1024x768.size inb_S1x1024x768_S1x1024x768_0_0_0).PackedRows (EltTy.packing .bf16)
  inb_S1x8x128_S1x8x128_0_0_0 : ∀ a, (![0, 0, 0] : Fin 3 → Nat) a + S1x8x128.size a ≤ S1x8x128.size a
  h_S1x8x128 : 0 < S1x8x128.numel
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  transposes_S512x768_p1_0_S768x512 : S512x768.Transposes [1, 0] S768x512
  reduces_S1024x512_S1024 : S1024x512.Reduces [1] S1024
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  shapeCasts_S1x8x128_S1x8x128 : S1x8x128.ShapeCasts S1x8x128
  reducesTo_S32x8x128_S_d0_1_2 : S32x8x128.ReducesTo [0, 1, 2] S_
  h_S_ : 0 < S_.numel
  dot_S1024x768_S768x512_S1024x512_1_0_0_1_n_n_wf : DotDims.WF S1024x768 S768x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S32x1024x768.size a
  hwx0_1 : ∀ i : grid0.Coords, EltTy.bits .bf16 = 32 ∨ (Rect.block (s := S32x1024x768) S1x1024x768.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S32x1024x768.size a
  hwx1_0 : ∀ i : grid1.Coords, EltTy.bits .f32 = 32 ∨ (Rect.block (s := S32x1024x768) S1x1024x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x768.size a ≤ S32x1024x768.size a
  hwx1_1 : ∀ i : grid1.Coords, EltTy.bits .bf16 = 32 ∨ (Rect.block (s := S32x1024x768) S1x1024x768.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x768.size a ≤ S32x1024x768.size a
  hwx2_0 : ∀ i : grid2.Coords, EltTy.bits .bf16 = 32 ∨ (Rect.block (s := S32x1024x768) S1x1024x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x768.size a ≤ S32x1024x768.size a
  hwx2_1 : ∀ i : grid2.Coords, EltTy.bits .bf16 = 32 ∨ (Rect.block (s := S32x1024x768) S1x1024x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x768.size a ≤ S32x1024x768.size a
  hwx2_2 : ∀ i : grid2.Coords, EltTy.bits .bf16 = 32 ∨ (Rect.block (s := S32x1024x768) S1x512x768.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x768.size a ≤ S32x1024x768.size a
  hwx2_3 : ∀ i : grid2.Coords, EltTy.bits .bf16 = 32 ∨ (Rect.block (s := S32x1024x768) S1x512x768.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x128.size a ≤ S32x8x128.size a
  hwx2_4 : ∀ i : grid2.Coords, EltTy.bits .f32 = 32 ∨ (Rect.block (s := S32x8x128) S1x8x128.size (cc2_transform_4 i) (hinb2_4 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x768.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1x1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x512x768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x512x768.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S32x1024x768 : Shape := ⟨3, ![32, 1024, 768]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S32x1024x768, .f32⟩
  | .hbm, ⟨2, _⟩ => ⟨S32x1024x768, .f32⟩
  | .hbm, ⟨3, _⟩ => ⟨S_, .f32⟩
  | .hbm, ⟨4, _⟩ => ⟨S32x1024, .f32⟩
  | .hbm, ⟨5, _⟩ => ⟨S32x1024x1, .f32⟩
  | .hbm, ⟨6, _⟩ => ⟨S32x1024x1, .f32⟩
  | .hbm, ⟨7, _⟩ => ⟨S_, .f32⟩
  | .hbm, ⟨8, _⟩ => ⟨S32x1024x1, .f32⟩
  | .hbm, ⟨9, _⟩ => ⟨S32x1024x1, .f32⟩
  | .hbm, ⟨10, _⟩ => ⟨S32x1024x768, .f32⟩
  | .hbm, ⟨11, _⟩ => ⟨S32x1024x768, .f32⟩
  | .hbm, ⟨12, _⟩ => ⟨S32x1024x768, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x768, .f32⟩
  | .hbm, ⟨21, _⟩ => ⟨S32x1024x768, .f32⟩
  | .hbm, ⟨22, _⟩ => ⟨S32x1024x1024, .f32⟩
  | .hbm, ⟨23, _⟩ => ⟨S32x1024x1024, .f32⟩
  | .hbm, ⟨24, _⟩ => ⟨S_, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x768_0_1_2 : S32x1024x1.BroadcastsInDim S32x1024x768 (![0, 1, 2] : Fin 3 → Fin S32x1024x768.rank)
  bcast_S_S32x1024x1024 : S_.BroadcastsInDim S32x1024x1024 (![] : Fin 0 → Fin S32x1024x1024.rank)
  reducesTo_S32x1024x1024_S_d0_1_2 : S32x1024x1024.ReducesTo [0, 1, 2] S_
  dot_S32x1024x768_S32x1024x768_S32x1024x1024_2_2_1_1_0_0_wf : DotDims.WF S32x1024x768 S32x1024x768 S32x1024x1024 [2] [2] [1] [1] [0] [0]

variable [Facts₀]

def dot_S32x1024x768_S32x1024x768_S32x1024x1024_2_2_1_1_0_0 : DotDims S32x1024x768 S32x1024x768 S32x1024x1024 where
  lhsContracting := [2]
  rhsContracting := [2]
  lhsNonContracting := [1]
  rhsNonContracting := [1]
  lhsBatch := [0]
  rhsBatch := [0]
  wf := dot_S32x1024x768_S32x1024x768_S32x1024x1024_2_2_1_1_0_0_wf

class Facts : Prop extends Facts₀ where

variable [Facts]
-- ==== Proof.BitsNorm0.lean ====
/- Region 0 (the row normalisation of the student features), at the contents `V` the region is entered with.
   Each grid point b stages batch b's [1,1024,768] block, and the body stores, over the whole output block,
   one pure function of the loaded block: every row divided by max(sqrt(sum of its squares), eps). So after
   the body at point t the output's staging buffer holds that function of the input window's block at t,
   and the input's buffer is as fetched. -/
import proofs.«171448_j24077586661772_1_alg».proof.Proof.Gen.Kernel.Launch
import proofs.«171448_j24077586661772_1_alg».proof.Proof.Gen.Kernel.Skeleton
import proofs.«171448_j24077586661772_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is
    `V`'s and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole [1,1024,768] block. -/
abbrev rr0 : Rect S1x1024x768 := Rect.unit (s := S1x1024x768) ![0, 0, 0] S1x1024x768.size inb_S1x1024x768_S1x1024x768_0_0_0

/-- What the body leaves in the output's staging buffer: its single store, of the normalised rows. -/
def out0_1 (x0 : Vec F S1x1024x768 .f32) : Vec F S1x1024x768 .bf16 :=
  View.canon [⟨rr0, k0_pay1 (View.ld x0 rr0)⟩]

/-- That store covers the block. -/
theorem cover0_1 (p0 : Vec F S1x1024x768 .bf16) (y : S1x1024x768.Idx) :
    ∃ pc ∈ ([⟨rr0, p0⟩] : List (View.Piece (Elt F) S1x1024x768 .bf16)), y ∈ pc.1.set :=
  View.cover_of_tiled [⟨rr0, p0⟩] S1x1024x768.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S1x1024x768 .f32) (harg1 : arg1.IsWhole) (arg2 : Memref sig .tc .vmem S1x1024x768 .bf16) (harg2 : arg2.IsWhole)
    (x0 : Vec F S1x1024x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the region finds them; after the body at point `t` the
    input's buffer at its block and the output's at the normalised block; the untouched scoped rest and generator
    register as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.BitsNorm1.lean ====
/- Region 1 (the row normalisation of the teacher features), at the contents `V` the region is entered with.
   Each grid point b stages batch b's [1,1024,768] block, and the body stores, over the whole output block,
   one pure function of the loaded block: every row divided by max(sqrt(sum of its squares), eps). So after
   the body at point t the output's staging buffer holds that function of the input window's block at t,
   and the input's buffer is as fetched. -/
import proofs.«171448_j24077586661772_1_alg».proof.Proof.Gen.Kernel.Launch
import proofs.«171448_j24077586661772_1_alg».proof.Proof.Gen.Kernel.Skeleton
import proofs.«171448_j24077586661772_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is
    `V`'s and whose body leaves the block in place: the window is fetched at every point, uncut, never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches: the whole [1,1024,768] block. -/
abbrev rr1 : Rect S1x1024x768 := Rect.unit (s := S1x1024x768) ![0, 0, 0] S1x1024x768.size inb_S1x1024x768_S1x1024x768_0_0_0

/-- What the body leaves in the output's staging buffer: its single store, of the normalised rows. -/
def out1_1 (x0 : Vec F S1x1024x768 .f32) : Vec F S1x1024x768 .bf16 :=
  View.canon [⟨rr1, k1_pay1 (View.ld x0 rr1)⟩]

/-- That store covers the block. -/
theorem cover1_1 (p0 : Vec F S1x1024x768 .bf16) (y : S1x1024x768.Idx) :
    ∃ pc ∈ ([⟨rr1, p0⟩] : List (View.Piece (Elt F) S1x1024x768 .bf16)), y ∈ pc.1.set :=
  View.cover_of_tiled [⟨rr1, p0⟩] S1x1024x768.size (by rfl) y

set_option maxHeartbeats 1000000 in
/-- The body on whole staging memrefs, the input's at contents `x0` and the output's at anything, runs to the
    continuation with the input's as it was and the output's at `out1_1 x0`. -/
theorem sound_kernel1 (c : Dev nD) (E : Set ℕ) (i : grid1.Coords) (arg1 : Memref sig .tc .vmem S1x1024x768 .f32) (harg1 : arg1.IsWhole) (arg2 : Memref sig .tc .vmem S1x1024x768 .bf16) (harg2 : arg2.IsWhole)
    (x0 : Vec F S1x1024x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the region finds them; after the body at point `t` the
    input's buffer at its block and the output's at the normalised block; the untouched scoped rest and generator
    register as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.BitsGram.lean ====
/- Region 2 (the Gram tiles and their accumulation), at the contents `V` the region is entered with.
   Grid point t = (b, j) stages batch b's two resident [1,1024,768] blocks, the j-th [1,512,768] tiles of
   the same two arrays, and batch b's [1,8,128] output block. The body ends with one store over the whole
   output block of a pure function of the four loaded blocks and of the block's contents just before:
   at j = 0 those contents are the zero block the body has just stored, at j = 1 they are what the point
   before left, since the output's block does not move between (b,0) and (b,1) and is written back only
   after (b,1). So the output's staging buffer after the body is given by a two-step recursion in closed form. -/
import proofs.«171448_j24077586661772_1_alg».proof.Proof.Gen.Kernel.Launch
import proofs.«171448_j24077586661772_1_alg».proof.Proof.Gen.Kernel.Skeleton
import proofs.«171448_j24077586661772_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulate at point `t` on a given block of prior contents. -/
def step2 (c : Dev nD) (t : Fin cfg2.N) (prev : Vec F S1x8x128 .f32) : Vec F S1x8x128 .f32 :=
  k2_pay2 (iblk2 V c 0 t) (iblk2 V c 1 t) (iblk2 V c 2 t) (iblk2 V c 3 t) prev

/-- The output's staging buffer after the body at position `n`: at an even position the accumulate on the
    zero block, at an odd position the accumulate on what the position before left. -/
def outsAt2 (c : Dev nD) : (n : ℕ) → n < cfg2.N → Vec F S1x8x128 .f32
  | 0, h => step2 V c ⟨0, h⟩ (k2_pay1 (F := F))
  | n + 1, h =>
    if (n + 1) % 2 = 0 then step2 V c ⟨n + 1, h⟩ (k2_pay1 (F := F))
    else step2 V c ⟨n + 1, h⟩ (outsAt2 c n (Nat.lt_of_succ_lt h))

/-- The recursion at an even position: the accumulate on the zero block. -/
theorem outsAt2_even (c : Dev nD) (t : Fin cfg2.N) (h : t.val % 2 = 0) :
    outsAt2 V c t.val t.isLt = k2_pay2 (iblk2 V c 0 t) (iblk2 V c 1 t) (iblk2 V c 2 t) (iblk2 V c 3 t) (k2_pay1 (F := F)) := by
  obtain ⟨n, hn⟩ := t
  cases n with
  | zero => exact rfl
  | succ n => exact (if_pos h).trans rfl

/-- The recursion at an odd position: the accumulate on what the position before left. -/
theorem outsAt2_odd (c : Dev nD) (t : Fin cfg2.N) (h : t.val % 2 = 1) :
    outsAt2 V c t.val t.isLt = k2_pay2 (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact absurd (show (0 : ℕ) % 2 = 1 from h) (by decide)
  | succ n => exact (if_neg (fun h0 => by dsimp only at h; omega)).trans rfl

/-- The condition of the body's conditional, from the grid coordinates: the second coordinate is 0. -/
abbrev cond2_0 (i : grid2.Coords) : Prop := (Scalar.cmpi .ne (Scalar.extui (Scalar.cmpi .eq (BitVec.ofNat 32 (i 1).val) 0#32)) 0#32) = 1#1

/-- It holds at the even positions of the grid's order, and only there. -/
theorem hcond2_0 : ∀ t : Fin cfg2.N, cond2_0 (grid2.coords t) ↔ t.val % 2 = 0 :=
  (by decide +kernel : ∀ t : Fin grid2.N, cond2_0 (grid2.coords t) ↔ t.val % 2 = 0)

/-- The zero offsets of the whole-block rectangles, one spelling per block shape. -/
theorem hz2_out : (![0, 0, 0] : Fin S1x8x128.rank → Nat) = fun _ => 0 := funext fun a => by fin_cases a <;> rfl
theorem hz2_res : (![0, 0, 0] : Fin S1x1024x768.rank → Nat) = fun _ => 0 := funext fun a => by fin_cases a <;> rfl
theorem hz2_tile : (![0, 0, 0] : Fin S1x512x768.rank → Nat) = fun _ => 0 := funext fun a => by fin_cases a <;> rfl

set_option maxHeartbeats 1000000 in
/-- The body where the conditional is taken (the tile is a batch's first), on whole staging memrefs, the inputs' at
    contents `x2` … `x5` and the output's at anything: it runs to the continuation with the inputs' as they were
    and the output's at the accumulate on the zero block. The zero block is stored over the whole output block and
    read back whole, and the last store covers the whole block again, so nothing of the earlier contents is left. -/
theorem sound_kernel2_A (c : Dev nD) (E : Set ℕ) (i : grid2.Coords)
    (arg2 : Memref sig .tc .vmem S1x1024x768 .bf16) (harg2 : arg2.IsWhole) (arg3 : Memref sig .tc .vmem S1x1024x768 .bf16) (harg3 : arg3.IsWhole)
    (arg4 : Memref sig .tc .vmem S1x512x768 .bf16) (harg4 : arg4.IsWhole) (arg5 : Memref sig .tc .vmem S1x512x768 .bf16) (harg5 : arg5.IsWhole)
    (arg6 : Memref sig .tc .vmem S1x8x128 .f32) (harg6 : arg6.IsWhole) (hc0 : cond2_0 i)
    (x2 x3 : Vec F S1x1024x768 .bf16) (x4 x5 : Vec F S1x512x768 .bf16) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k2_pay2 x2 x3 x4 x5 (k2_pay1 (F := F)))) -∗ K ⟨⟩))
      ⊢ wp frame (wpE (defs₀ (F := F)) Variants.none c none) E (cc2__gram_kernel i arg2 harg2 arg3 harg3 arg4 harg4 arg5 harg5 arg6 harg6) K := by
  simp only [cc2__gram_kernel_eq_skeleton]; unfold cc2__gram_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3
  obtain rfl := harg4.eq_unread hf4; obtain rfl := harg5.eq_unread hf5
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [View.read_writes_eq_canon _ _ _ (fun y => ⟨_, List.mem_cons_self, View.mem_set_unit_zero hz2_out inb_S1x8x128_S1x8x128_0_0_0 y⟩),
    View.canon_cons_unit_zero hz2_out]
  sl_unfold_words
  simp only [View.readAt_eq_ld, harg2.read_unread, harg3.read_unread, harg4.read_unread, harg5.read_unread,
    View.ld_unit_zero (S := S1x1024x768) hz2_res, View.ld_unit_zero (S := S1x512x768) hz2_tile, View.readCov_unit_zero (S := S1x8x128) _ hz2_out]

set_option maxHeartbeats 1000000 in
/-- The body where the conditional is not taken (the tile is a batch's second), on whole staging memrefs, the inputs'
    at contents `x2` … `x5` and the output's at `xo`: it runs to the continuation with the inputs' as they were and
    the output's at the accumulate on `xo`. The block is read whole, and the one store covers it whole. -/
theorem sound_kernel2_B (c : Dev nD) (E : Set ℕ) (i : grid2.Coords)
    (arg2 : Memref sig .tc .vmem S1x1024x768 .bf16) (harg2 : arg2.IsWhole) (arg3 : Memref sig .tc .vmem S1x1024x768 .bf16) (harg3 : arg3.IsWhole)
    (arg4 : Memref sig .tc .vmem S1x512x768 .bf16) (harg4 : arg4.IsWhole) (arg5 : Memref sig .tc .vmem S1x512x768 .bf16) (harg5 : arg5.IsWhole)
    (arg6 : Memref sig .tc .vmem S1x8x128 .f32) (harg6 : arg6.IsWhole) (hc0 : ¬cond2_0 i)
    (x2 x3 : Vec F S1x1024x768 .bf16) (x4 x5 : Vec F S1x512x768 .bf16) (xo : Vec F S1x8x128 .f32) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xo
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k2_pay2 x2 x3 x4 x5 xo)) -∗ K ⟨⟩))
      ⊢ wp frame (wpE (defs₀ (F := F)) Variants.none c none) E (cc2__gram_kernel i arg2 harg2 arg3 harg3 arg4 harg4 arg5 harg5 arg6 harg6) K := by
  simp only [cc2__gram_kernel_eq_skeleton]; unfold cc2__gram_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  obtain rfl := harg4.eq_unread hf4; obtain rfl := harg5.eq_unread hf5
  obtain rfl := harg6.eq_unread hf6
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [View.read_writes_eq_canon _ _ _ (fun y => ⟨_, List.mem_cons_self, View.mem_set_unit_zero hz2_out inb_S1x8x128_S1x8x128_0_0_0 y⟩),
    View.canon_cons_unit_zero hz2_out]
  sl_unfold_words
  simp only [View.readAt_eq_ld, harg2.read_unread, harg3.read_unread, harg4.read_unread, harg5.read_unread, harg6.read_unread,
    View.ld_unit_zero (S := S1x1024x768) hz2_res, View.ld_unit_zero (S := S1x512x768) hz2_tile, View.ld_unit_zero (S := S1x8x128) hz2_out]

/-- The pipeline's proof data on core `c`: the arrays as the region finds them; after the body at point `t` every
    input's buffer at its block and the output's at the recursion's value; the untouched scoped rest and generator
    register as invariant; nothing owed; the two arrays each read through two windows, so each pair of windows
    splits its array's share. -/
def dat2 (c : Dev nD) : Dat τ (Elt F) Unit ℕ (UR sig nD τ) ℕ cfg2 c where
  A w := V c (Pipeline.arrRef spec2 w)
  after w t := match w with
    | ⟨0, _⟩ => iblk2 V c 0 t | ⟨1, _⟩ => iblk2 V c 1 t | ⟨2, _⟩ => iblk2 V c 2 t | ⟨3, _⟩ => iblk2 V c 3 t
    | ⟨4, _⟩ => outsAt2 V c t.val t.isLt
  Φ _ := Pipeline.ΦA spec2 c
  q w := match w with
    | ⟨0, _⟩ => fullShare.left | ⟨1, _⟩ => fullShare.left | ⟨2, _⟩ => fullShare.right | ⟨3, _⟩ => fullShare.right | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

/-- Each input's current staging buffer holds its block at every point, fetched there or not: where it is not
    fetched its block index has not moved, and the body leaves every input's block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- At an odd position the output's current staging buffer holds what the body left at the position before: the
    position is not the first, the buffer was not written back between (that happens after odd positions only),
    the window is never idle and its blocks are not cut. -/
theorem before2_4_odd (c : Dev nD) (t : Fin cfg2.N) (h : t.val % 2 = 1) (d) :
    (dat2 V c).before 4 t d = outsAt2 V c (t.val - 1) (Nat.lt_of_le_of_lt (Nat.sub_le _ _) t.isLt) := by
  rw [Dat.before_out_kept _ 4 rfl t (by omega) (Bool.eq_false_iff.mpr fun h' => by have := (flush2_4 _).mp h'; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' memrefs hold their blocks; the position's parity says whether the conditional
    is taken; where it is not, the output's memref holds what the position before left; so one of the two runs
    applies, and what it leaves is the recursion's value there. The invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 2 = 0
  · rw [outsAt2_even V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ ((hcond2_0 t).mpr h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h1 : t.val % 2 = 1 := by omega
    rw [outsAt2_odd V c t h1]
    simp only [before2_4_odd V c t h1]
    iintro ⟨HΦ, Ho, ⟨%d0, H0⟩, ⟨%d1, H1⟩, ⟨%d2, H2⟩, ⟨%d3, H3⟩, ⟨%d4, H4⟩⟩
    iapply (sound_kernel2_B c Set.univ (grid2.coords t) _ _ _ _ _ _ _ _ _ _ (fun h => h0 ((hcond2_0 t).mp h))
      (iblk2 V c 0 t) (iblk2 V c 1 t) (iblk2 V c 2 t) (iblk2 V c 3 t)
      (outsAt2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.BitsShares2.lean ====
/- Region 2's arrays. The third call reads each of the two normalised feature arrays through two windows (a
   whole batch block and a half block of the same batch) and writes its partial sums to a third array. Three
   distinct buffers therefore stand behind five windows. A buffer read by two windows is held by them in halves:
   the full share of a buffer is its left half together with its right half, at the same contents; the output's
   buffer is held whole. This module says that the three buffers, each whole at the full share, are exactly the five
   windowed arrays at those shares, and carries the statement to the core's unscoped buffers: the arrays split out
   of them where the region is entered and joined back into them, at an updated valuation, where it is left. -/
import proofs.«171448_j24077586661772_1_alg».proof.Proof.Gen.Kernel.Launch
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window of region 2 holds its array at: the two readers of one array take its two halves, the output the whole. -/
def sh2 : Fin 5 → PosShare TreeShare
  | ⟨0, _⟩ => fullShare.left | ⟨1, _⟩ => fullShare.left | ⟨2, _⟩ => fullShare.right | ⟨3, _⟩ => fullShare.right | ⟨4, _⟩ => fullShare
  | ⟨_ + 5, h⟩ => absurd h (Nat.not_lt.2 (Nat.le_add_left _ _))

/-- The buffers behind the five windows' arrays are three: the two feature arrays and the output. -/
theorem arrImage2 : Finset.univ.image (Pipeline.arrRef spec2) = [main_v0, main_v1, main_v2].toFinset := by decide

/-- Those three buffers, each whole at the full share, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2)) := by
  unfold Pipeline.arrBufs
  exact bigSep_eq_bigSepL_of_eq [main_v0, main_v1, main_v2] arrImage2 (by decide) _

/-- The five windowed arrays one by one: each array is a whole buffer, held at its window's share, at the
    valuation's contents of the buffer behind it. -/
theorem arrays2_eq {c : Dev nD} (dat : Dat τ (Elt F) Unit ℕ (UR sig nD τ) ℕ cfg2 c) (hs : ∀ w, dat.share w = sh2 w)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (dat.arrays G : sProp 𝕄)
      = iprop((((c : Thread nD τ).loc main_v0) ↦{fullShare.left} V main_v0) ∗ (((c : Thread nD τ).loc main_v1) ↦{fullShare.left} V main_v1)
          ∗ (((c : Thread nD τ).loc main_v0) ↦{fullShare.right} V main_v0) ∗ (((c : Thread nD τ).loc main_v1) ↦{fullShare.right} V main_v1)
          ∗ (((c : Thread nD τ).loc main_v2) ↦{fullShare} V main_v2)) := by
  unfold Dat.arrays
  refine (bigSep_congr (Ψ := fun w : Fin 5 => (((c : Thread nD τ).loc (Pipeline.arrRef spec2 w)) ↦{sh2 w} V (Pipeline.arrRef spec2 w) : sProp 𝕄))
    fun w _ => ?_).trans ((bigSep_W2 _).trans rfl)
  rw [(arr_whole2 w).set_eq_univ, hs, hG]

/-- A buffer whole at the full share is its left half and its right half, at the same contents. -/
theorem whole_halves {c : Dev nD} (b : Ref sig .tc) (f : Buf (Elt F) ((c : Thread nD τ).loc b)) :
    ((((c : Thread nD τ).loc b) ↦{fullShare} f) : sProp 𝕄)
      ⊣⊢ iprop((((c : Thread nD τ).loc b) ↦{fullShare.left} f) ∗ (((c : Thread nD τ).loc b) ↦{fullShare.right} f)) :=
  pointsTo_share (PosShare.mem_left_op_right fullShare)

/-- The three buffers whole are the five windowed arrays: each feature array's full share goes half to its
    whole-block reader and half to its half-block reader, the output's buffer whole to its window. -/
theorem arrays2_iff {c : Dev nD} (dat : Dat τ (Elt F) Unit ℕ (UR sig nD τ) ℕ cfg2 c) (hs : ∀ w, dat.share w = sh2 w)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs (Ix := Unit) (Name := ℕ) (U := UR sig nD τ) (Lvl := ℕ) spec2 c V : sProp 𝕄) ⊣⊢ dat.arrays G := by
  rw [arrBufs2_eq c V, arrays2_eq dat hs V G hG]
  refine ⟨?_, ?_⟩
  · iintro ⟨H0, H1, H2⟩
    ihave H0' := (whole_halves (F := F) (c := c) main_v0 (V main_v0)).1 $$ H0
    ihave H1' := (whole_halves (F := F) (c := c) main_v1 (V main_v1)).1 $$ H1
    icases H0' with ⟨L0, R0⟩
    icases H1' with ⟨L1, R1⟩
    isplitl [L0]; · iexact L0
    isplitl [L1]; · iexact L1
    isplitl [R0]; · iexact R0
    isplitl [R1]; · iexact R1
    iexact H2
  · iintro ⟨L0, L1, R0, R1, H2⟩
    isplitl [L0 R0]
    · iapply (whole_halves (F := F) (c := c) main_v0 (V main_v0)).2
      isplitl [L0]; · iexact L0
      iexact R0
    isplitl [L1 R1]
    · iapply (whole_halves (F := F) (c := c) main_v1 (V main_v1)).2
      isplitl [L1]; · iexact L1
      iexact R1
    iexact H2

/-- ENTRY: the core's unscoped buffers at a valuation are region 2's arrays at that valuation's contents and the
    unscoped rest. -/
theorem arrays2_of_unscopedBufs {c : Dev nD} (dat : Dat τ (Elt F) Unit ℕ (UR sig nD τ) ℕ cfg2 c) (hs : ∀ w, dat.share w = sh2 w)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    (unscopedBufs c V : sProp 𝕄) ⊢ iprop(dat.arrays G ∗ Pipeline.unscopedRest (Ix := Unit) (Name := ℕ) (U := UR sig nD τ) (Lvl := ℕ) spec2 c V) := by
  rw [Pipeline.unscopedBufs_split₀ cfgs (2 : Fin 3) winFacts₀2.arr_unscoped c V]
  exact sep_mono (arrays2_iff dat hs V G hG).1 .rfl

/-- EXIT: region 2's arrays at contents `G` and the unscoped rest at `V` are the core's unscoped buffers at any
    valuation that has the arrays' buffers at `G` and agrees with `V` off them. -/
theorem unscopedBufs_of_arrays2 {c : Dev nD} (dat : Dat τ (Elt F) Unit ℕ (UR sig nD τ) ℕ cfg2 c) (hs : ∀ w, dat.share w = sh2 w)
    (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest (Ix := Unit) (Name := ℕ) (U := UR sig nD τ) (Lvl := ℕ) spec2 c V) ⊢ (unscopedBufs c V' : sProp 𝕄) := by
  rw [Pipeline.unscopedBufs_split₀ cfgs (2 : Fin 3) winFacts₀2.arr_unscoped c V']
  refine sep_mono (arrays2_iff dat hs V' G hG).2 (Entails.of_eq ?_)
  unfold Pipeline.unscopedRest
  exact bigSep_congr fun b hb => by rw [hrest b (Finset.mem_sdiff.mp hb).2]

end Cert.Kernel.Reg

end
-- ==== Proof.BitsMainRun.lean ====
/- The whole program's run. @main is three kernel regions and then four host operations. Between two items
   the TensorCore holds every unscoped buffer whole at a known valuation: the launch contents (`W0`), then after
   each region the same with that region's output array replaced by what its write-backs leave (`W1`, `W2`,
   `W3`: the normalised student array, the normalised teacher array, the per-batch lane blocks), then the host
   operations applied (`W4`). Each region is entered by splitting its arrays out of the held buffers and left by
   putting them back at their final contents; in region 2 the two normalised arrays are each read through two
   windows, which take the two halves of the array's share. Every weakly fair execution ends with every unscoped
   buffer at `W4`. -/
import proofs.«171448_j24077586661772_1_alg».proof.Proof.BitsNorm0
import proofs.«171448_j24077586661772_1_alg».proof.Proof.BitsNorm1
import proofs.«171448_j24077586661772_1_alg».proof.Proof.BitsGram
import proofs.«171448_j24077586661772_1_alg».proof.Proof.BitsShares2
import proofs.«171448_j24077586661772_1_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
abbrev E0 (c : Dev nD) (b : Ref sig .tc) : Buf (Elt F) ((c : Thread nD τ).loc b) := W0 m c b
/-- After region 0: `main_v0` holds the normalised student rows. -/
def W1 (c : Dev nD) : Valuation τ sig (Elt F) := Function.update (W0 m c) main_v0 ((dat0 (E0 m) c).arrAt 1 cfg0.N)
abbrev E1 (c : Dev nD) (b : Ref sig .tc) : Buf (Elt F) ((c : Thread nD τ).loc b) := W1 m c b
/-- After region 1: `main_v1` holds the normalised teacher rows. -/
def W2 (c : Dev nD) : Valuation τ sig (Elt F) := Function.update (W1 m c) main_v1 ((dat1 (E1 m) c).arrAt 1 cfg1.N)
abbrev E2 (c : Dev nD) (b : Ref sig .tc) : Buf (Elt F) ((c : Thread nD τ).loc b) := W2 m c b
/-- After region 2: `main_v2` holds the per-batch lane blocks. -/
def W3 (c : Dev nD) : Valuation τ sig (Elt F) := Function.update (W2 m c) main_v2 ((dat2 (E2 m) c).arrAt 4 cfg2.N)
abbrev E3 (c : Dev nD) (b : Ref sig .tc) : Buf (Elt F) ((c : Thread nD τ).loc b) := W3 m c b
/-- After the host operations. -/
abbrev W4 (c : Dev nD) : Valuation τ sig (Elt F) := StableHlo.after hostOps3 (W3 m c)

theorem W1_self (c : Dev nD) : W1 m c main_v0 = (dat0 (E0 m) c).arrAt 1 cfg0.N := by
  unfold W1; exact Function.update_self _ _ _
theorem W1_of_ne (c : Dev nD) (r : Ref sig .tc) (h : r ≠ main_v0) : W1 m c r = W0 m c r := by
  unfold W1; exact Function.update_of_ne (StableHlo.devRef_ne_of_ne h) _ _
theorem W2_self (c : Dev nD) : W2 m c main_v1 = (dat1 (E1 m) c).arrAt 1 cfg1.N := by
  unfold W2; exact Function.update_self _ _ _
theorem W2_of_ne (c : Dev nD) (r : Ref sig .tc) (h : r ≠ main_v1) : W2 m c r = W1 m c r := by
  unfold W2; exact Function.update_of_ne (StableHlo.devRef_ne_of_ne h) _ _
theorem W3_self (c : Dev nD) : W3 m c main_v2 = (dat2 (E2 m) c).arrAt 4 cfg2.N := by
  unfold W3; exact Function.update_self _ _ _
theorem W3_of_ne (c : Dev nD) (r : Ref sig .tc) (h : r ≠ main_v2) : W3 m c r = W2 m c r := by
  unfold W3; exact Function.update_of_ne (StableHlo.devRef_ne_of_ne h) _ _

/-- At a region's exit each of its arrays holds what the pipeline leaves, and every other buffer what it held. -/
theorem hF0 (c : Dev nD) (w : Fin cfg0.W) : (dat0 (E0 m) c).arrAt w cfg0.N = E1 m c (Pipeline.arrRef spec0 w) :=
  match w with
  | ⟨0, _⟩ => (((dat0 (E0 m) c).arrAt_in 0 rfl _).trans (A_eq0 (E0 m) c 0)).trans (W1_of_ne m c main_arg0 (by decide)).symm
  | ⟨1, _⟩ => (W1_self m c).symm
theorem hrest0 (c : Dev nD) : ∀ b, b ∉ Finset.univ.image (Pipeline.arrRef spec0) → E1 m c b = E0 m c b :=
  fun b hb => W1_of_ne m c b fun e => hb (e ▸ Finset.mem_image.mpr ⟨1, Finset.mem_univ _, rfl⟩)
theorem hF1 (c : Dev nD) (w : Fin cfg1.W) : (dat1 (E1 m) c).arrAt w cfg1.N = E2 m c (Pipeline.arrRef spec1 w) :=
  match w with
  | ⟨0, _⟩ => (((dat1 (E1 m) c).arrAt_in 0 rfl _).trans (A_eq1 (E1 m) c 0)).trans (W2_of_ne m c main_arg1 (by decide)).symm
  | ⟨1, _⟩ => (W2_self m c).symm
theorem hrest1 (c : Dev nD) : ∀ b, b ∉ Finset.univ.image (Pipeline.arrRef spec1) → E2 m c b = E1 m c b :=
  fun b hb => W2_of_ne m c b fun e => hb (e ▸ Finset.mem_image.mpr ⟨1, Finset.mem_univ _, rfl⟩)
theorem hF2 (c : Dev nD) (w : Fin cfg2.W) : (dat2 (E2 m) c).arrAt w cfg2.N = E3 m c (Pipeline.arrRef spec2 w) :=
  match w with
  | ⟨0, _⟩ => (((dat2 (E2 m) c).arrAt_in 0 rfl _).trans (A_eq2 (E2 m) c 0)).trans (W3_of_ne m c main_v0 (by decide)).symm
  | ⟨1, _⟩ => (((dat2 (E2 m) c).arrAt_in 1 rfl _).trans (A_eq2 (E2 m) c 1)).trans (W3_of_ne m c main_v1 (by decide)).symm
  | ⟨2, _⟩ => (((dat2 (E2 m) c).arrAt_in 2 rfl _).trans (A_eq2 (E2 m) c 2)).trans (W3_of_ne m c main_v0 (by decide)).symm
  | ⟨3, _⟩ => (((dat2 (E2 m) c).arrAt_in 3 rfl _).trans (A_eq2 (E2 m) c 3)).trans (W3_of_ne m c main_v1 (by decide)).symm
  | ⟨4, _⟩ => (W3_self m c).symm
theorem hrest2 (c : Dev nD) : ∀ b, b ∉ Finset.univ.image (Pipeline.arrRef spec2) → E3 m c b = E2 m c b :=
  fun b hb => W3_of_ne m c b fun e => hb (e ▸ Finset.mem_image.mpr ⟨4, Finset.mem_univ _, rfl⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core's dues, none. -/
abbrev R (c : Dev nD) : sProp 𝕄 := iprop((∃ r, prngReg c r) ∗ ∃ W, owes (c : Thread nD τ) (0 : CellTallies nD τ sig Unit) W)

/-- In region 2 every window holds its array at the share the proof data names. -/
theorem share2 (c : Dev nD) (w : Fin cfg2.W) : (dat2 (E2 m) c).share w = sh2 w :=
  match w with
  | ⟨0, _⟩ => rfl | ⟨1, _⟩ => rfl | ⟨2, _⟩ => rfl | ⟨3, _⟩ => rfl | ⟨4, _⟩ => rfl

set_option backward.isDefEq.respectTransparency.types false in
/-- Region 0 over the thread state: entered with every unscoped buffer at `W0`, left with them at `W1`. Its arrays
    are split out of the unscoped buffers at entry and put back at their final contents at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its arrays
    are split out of the unscoped buffers at entry and put back at their final contents at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. The two
    normalised arrays are each behind two input windows, which hold them at the two halves of the full share. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := arrays2_of_unscopedBufs (dat2 (E2 m) c) (share2 m c) (E2 m c) ((dat2 (E2 m) c).arrAt · 0) (fun w => A_eq2 (E2 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (dat2 (E2 m) c) (share2 m c) (E2 m c) (E3 m c) ((dat2 (E2 m) c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- The host operations after the regions, as a segment from `W3`. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) R

/-- @main's four items in order. -/
abbrev segs : List (Pipeline.Seg (pcfgs (F := F)) adm (pdats m) () defs₀ 𝒱₀ L lv) :=
  [ .region (reg0 m), .region (reg1 m), .region (reg2 m), .host (hseg3 m) ]

set_option backward.isDefEq.respectTransparency.types false in
/-- From any memory with zero counters, every weakly fair execution of @main terminates, nothing faulting, and every
    final memory holds every unscoped buffer of the TensorCore at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := ⟨fun _ => .rfl, fun _ => .rfl, fun _ => .rfl, fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments end as launched: no region's output and no host operation writes one. -/
theorem W4_main_arg0 (c : Dev nD) : W4 m c main_arg0 = m ((c : Thread nD τ).loc main_arg0) :=
  (StableHlo.after_of_writes_sub hostOps3 _ hostOps3_writes (by decide)).trans <|
    (W3_of_ne m c main_arg0 (by decide)).trans <| (W2_of_ne m c main_arg0 (by decide)).trans <| (W1_of_ne m c main_arg0 (by decide)).trans rfl
theorem W4_main_arg1 (c : Dev nD) : W4 m c main_arg1 = m ((c : Thread nD τ).loc main_arg1) :=
  (StableHlo.after_of_writes_sub hostOps3 _ hostOps3_writes (by decide)).trans <|
    (W3_of_ne m c main_arg1 (by decide)).trans <| (W2_of_ne m c main_arg1 (by decide)).trans <| (W1_of_ne m c main_arg1 (by decide)).trans rfl

/-- The frame: every execution ends with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_main m ρ)

end Cert.Kernel.Reg

end
-- ==== Proof.Norm0.lean ====
/- Region 0 (the row normalisation of the student features), at the contents `V` the region is entered with.
   Each grid point b stages batch b's [1,1024,768] block, and the body stores, over the whole output block,
   one pure function of the loaded block: every row divided by max(sqrt(sum of its squares), eps). So after
   the body at point t the output's staging buffer holds that function of the input window's block at t,
   and the input's buffer is as fetched. -/
import proofs.«171448_j24077586661772_1_alg».proof.Proof.Gen.KernelIdeal.Launch
import proofs.«171448_j24077586661772_1_alg».proof.Proof.Gen.KernelIdeal.Skeleton
import proofs.«171448_j24077586661772_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is
    `V`'s and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole [1,1024,768] block. -/
abbrev rr0 : Rect S1x1024x768 := Rect.unit (s := S1x1024x768) ![0, 0, 0] S1x1024x768.size inb_S1x1024x768_S1x1024x768_0_0_0

/-- What the body leaves in the output's staging buffer: its single store, of the normalised rows. -/
def out0_1 (x0 : Vec F S1x1024x768 .f32) : Vec F S1x1024x768 .bf16 :=
  View.canon [⟨rr0, k0_pay1 (View.ld x0 rr0)⟩]

/-- That store covers the block. -/
theorem cover0_1 (p0 : Vec F S1x1024x768 .bf16) (y : S1x1024x768.Idx) :
    ∃ pc ∈ ([⟨rr0, p0⟩] : List (View.Piece (Elt F) S1x1024x768 .bf16)), y ∈ pc.1.set :=
  View.cover_of_tiled [⟨rr0, p0⟩] S1x1024x768.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S1x1024x768 .f32) (harg1 : arg1.IsWhole) (arg2 : Memref sig .tc .vmem S1x1024x768 .bf16) (harg2 : arg2.IsWhole)
    (x0 : Vec F S1x1024x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the region finds them; after the body at point `t` the
    input's buffer at its block and the output's at the normalised block; the untouched scoped rest and generator
    register as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.Norm1.lean ====
/- Region 1 (the row normalisation of the teacher features), at the contents `V` the region is entered with.
   Each grid point b stages batch b's [1,1024,768] block, and the body stores, over the whole output block,
   one pure function of the loaded block: every row divided by max(sqrt(sum of its squares), eps). So after
   the body at point t the output's staging buffer holds that function of the input window's block at t,
   and the input's buffer is as fetched. -/
import proofs.«171448_j24077586661772_1_alg».proof.Proof.Gen.KernelIdeal.Launch
import proofs.«171448_j24077586661772_1_alg».proof.Proof.Gen.KernelIdeal.Skeleton
import proofs.«171448_j24077586661772_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is
    `V`'s and whose body leaves the block in place: the window is fetched at every point, uncut, never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches: the whole [1,1024,768] block. -/
abbrev rr1 : Rect S1x1024x768 := Rect.unit (s := S1x1024x768) ![0, 0, 0] S1x1024x768.size inb_S1x1024x768_S1x1024x768_0_0_0

/-- What the body leaves in the output's staging buffer: its single store, of the normalised rows. -/
def out1_1 (x0 : Vec F S1x1024x768 .f32) : Vec F S1x1024x768 .bf16 :=
  View.canon [⟨rr1, k1_pay1 (View.ld x0 rr1)⟩]

/-- That store covers the block. -/
theorem cover1_1 (p0 : Vec F S1x1024x768 .bf16) (y : S1x1024x768.Idx) :
    ∃ pc ∈ ([⟨rr1, p0⟩] : List (View.Piece (Elt F) S1x1024x768 .bf16)), y ∈ pc.1.set :=
  View.cover_of_tiled [⟨rr1, p0⟩] S1x1024x768.size (by rfl) y

set_option maxHeartbeats 1000000 in
/-- The body on whole staging memrefs, the input's at contents `x0` and the output's at anything, runs to the
    continuation with the input's as it was and the output's at `out1_1 x0`. -/
theorem sound_kernel1 (c : Dev nD) (E : Set ℕ) (i : grid1.Coords) (arg1 : Memref sig .tc .vmem S1x1024x768 .f32) (harg1 : arg1.IsWhole) (arg2 : Memref sig .tc .vmem S1x1024x768 .bf16) (harg2 : arg2.IsWhole)
    (x0 : Vec F S1x1024x768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the region finds them; after the body at point `t` the
    input's buffer at its block and the output's at the normalised block; the untouched scoped rest and generator
    register as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.Gram.lean ====
/- Region 2 (the Gram tiles and their accumulation), at the contents `V` the region is entered with.
   Grid point t = (b, j) stages batch b's two resident [1,1024,768] blocks, the j-th [1,512,768] tiles of
   the same two arrays, and batch b's [1,8,128] output block. The body ends with one store over the whole
   output block of a pure function of the four loaded blocks and of the block's contents just before:
   at j = 0 those contents are the zero block the body has just stored, at j = 1 they are what the point
   before left, since the output's block does not move between (b,0) and (b,1) and is written back only
   after (b,1). So the output's staging buffer after the body is given by a two-step recursion in closed form. -/
import proofs.«171448_j24077586661772_1_alg».proof.Proof.Gen.KernelIdeal.Launch
import proofs.«171448_j24077586661772_1_alg».proof.Proof.Gen.KernelIdeal.Skeleton
import proofs.«171448_j24077586661772_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulate at point `t` on a given block of prior contents. -/
def step2 (c : Dev nD) (t : Fin cfg2.N) (prev : Vec F S1x8x128 .f32) : Vec F S1x8x128 .f32 :=
  k2_pay2 (iblk2 V c 0 t) (iblk2 V c 1 t) (iblk2 V c 2 t) (iblk2 V c 3 t) prev

/-- The output's staging buffer after the body at position `n`: at an even position the accumulate on the
    zero block, at an odd position the accumulate on what the position before left. -/
def outsAt2 (c : Dev nD) : (n : ℕ) → n < cfg2.N → Vec F S1x8x128 .f32
  | 0, h => step2 V c ⟨0, h⟩ (k2_pay1 (F := F))
  | n + 1, h =>
    if (n + 1) % 2 = 0 then step2 V c ⟨n + 1, h⟩ (k2_pay1 (F := F))
    else step2 V c ⟨n + 1, h⟩ (outsAt2 c n (Nat.lt_of_succ_lt h))

/-- The recursion at an even position: the accumulate on the zero block. -/
theorem outsAt2_even (c : Dev nD) (t : Fin cfg2.N) (h : t.val % 2 = 0) :
    outsAt2 V c t.val t.isLt = k2_pay2 (iblk2 V c 0 t) (iblk2 V c 1 t) (iblk2 V c 2 t) (iblk2 V c 3 t) (k2_pay1 (F := F)) := by
  obtain ⟨n, hn⟩ := t
  cases n with
  | zero => exact rfl
  | succ n => exact (if_pos h).trans rfl

/-- The recursion at an odd position: the accumulate on what the position before left. -/
theorem outsAt2_odd (c : Dev nD) (t : Fin cfg2.N) (h : t.val % 2 = 1) :
    outsAt2 V c t.val t.isLt = k2_pay2 (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact absurd (show (0 : ℕ) % 2 = 1 from h) (by decide)
  | succ n => exact (if_neg (fun h0 => by dsimp only at h; omega)).trans rfl

/-- The condition of the body's conditional, from the grid coordinates: the second coordinate is 0. -/
abbrev cond2_0 (i : grid2.Coords) : Prop := (Scalar.cmpi .ne (Scalar.extui (Scalar.cmpi .eq (BitVec.ofNat 32 (i 1).val) 0#32)) 0#32) = 1#1

/-- It holds at the even positions of the grid's order, and only there. -/
theorem hcond2_0 : ∀ t : Fin cfg2.N, cond2_0 (grid2.coords t) ↔ t.val % 2 = 0 :=
  (by decide +kernel : ∀ t : Fin grid2.N, cond2_0 (grid2.coords t) ↔ t.val % 2 = 0)

/-- The zero offsets of the whole-block rectangles, one spelling per block shape. -/
theorem hz2_out : (![0, 0, 0] : Fin S1x8x128.rank → Nat) = fun _ => 0 := funext fun a => by fin_cases a <;> rfl
theorem hz2_res : (![0, 0, 0] : Fin S1x1024x768.rank → Nat) = fun _ => 0 := funext fun a => by fin_cases a <;> rfl
theorem hz2_tile : (![0, 0, 0] : Fin S1x512x768.rank → Nat) = fun _ => 0 := funext fun a => by fin_cases a <;> rfl

set_option maxHeartbeats 1000000 in
/-- The body where the conditional is taken (the tile is a batch's first), on whole staging memrefs, the inputs' at
    contents `x2` … `x5` and the output's at anything: it runs to the continuation with the inputs' as they were
    and the output's at the accumulate on the zero block. The zero block is stored over the whole output block and
    read back whole, and the last store covers the whole block again, so nothing of the earlier contents is left. -/
theorem sound_kernel2_A (c : Dev nD) (E : Set ℕ) (i : grid2.Coords)
    (arg2 : Memref sig .tc .vmem S1x1024x768 .bf16) (harg2 : arg2.IsWhole) (arg3 : Memref sig .tc .vmem S1x1024x768 .bf16) (harg3 : arg3.IsWhole)
    (arg4 : Memref sig .tc .vmem S1x512x768 .bf16) (harg4 : arg4.IsWhole) (arg5 : Memref sig .tc .vmem S1x512x768 .bf16) (harg5 : arg5.IsWhole)
    (arg6 : Memref sig .tc .vmem S1x8x128 .f32) (harg6 : arg6.IsWhole) (hc0 : cond2_0 i)
    (x2 x3 : Vec F S1x1024x768 .bf16) (x4 x5 : Vec F S1x512x768 .bf16) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k2_pay2 x2 x3 x4 x5 (k2_pay1 (F := F)))) -∗ K ⟨⟩))
      ⊢ wp frame (wpE (defs₀ (F := F)) Variants.none c none) E (cc2__gram_kernel i arg2 harg2 arg3 harg3 arg4 harg4 arg5 harg5 arg6 harg6) K := by
  simp only [cc2__gram_kernel_eq_skeleton]; unfold cc2__gram_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3
  obtain rfl := harg4.eq_unread hf4; obtain rfl := harg5.eq_unread hf5
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [View.read_writes_eq_canon _ _ _ (fun y => ⟨_, List.mem_cons_self, View.mem_set_unit_zero hz2_out inb_S1x8x128_S1x8x128_0_0_0 y⟩),
    View.canon_cons_unit_zero hz2_out]
  sl_unfold_words
  simp only [View.readAt_eq_ld, harg2.read_unread, harg3.read_unread, harg4.read_unread, harg5.read_unread,
    View.ld_unit_zero (S := S1x1024x768) hz2_res, View.ld_unit_zero (S := S1x512x768) hz2_tile, View.readCov_unit_zero (S := S1x8x128) _ hz2_out]

set_option maxHeartbeats 1000000 in
/-- The body where the conditional is not taken (the tile is a batch's second), on whole staging memrefs, the inputs'
    at contents `x2` … `x5` and the output's at `xo`: it runs to the continuation with the inputs' as they were and
    the output's at the accumulate on `xo`. The block is read whole, and the one store covers it whole. -/
theorem sound_kernel2_B (c : Dev nD) (E : Set ℕ) (i : grid2.Coords)
    (arg2 : Memref sig .tc .vmem S1x1024x768 .bf16) (harg2 : arg2.IsWhole) (arg3 : Memref sig .tc .vmem S1x1024x768 .bf16) (harg3 : arg3.IsWhole)
    (arg4 : Memref sig .tc .vmem S1x512x768 .bf16) (harg4 : arg4.IsWhole) (arg5 : Memref sig .tc .vmem S1x512x768 .bf16) (harg5 : arg5.IsWhole)
    (arg6 : Memref sig .tc .vmem S1x8x128 .f32) (harg6 : arg6.IsWhole) (hc0 : ¬cond2_0 i)
    (x2 x3 : Vec F S1x1024x768 .bf16) (x4 x5 : Vec F S1x512x768 .bf16) (xo : Vec F S1x8x128 .f32) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xo
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k2_pay2 x2 x3 x4 x5 xo)) -∗ K ⟨⟩))
      ⊢ wp frame (wpE (defs₀ (F := F)) Variants.none c none) E (cc2__gram_kernel i arg2 harg2 arg3 harg3 arg4 harg4 arg5 harg5 arg6 harg6) K := by
  simp only [cc2__gram_kernel_eq_skeleton]; unfold cc2__gram_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  obtain rfl := harg4.eq_unread hf4; obtain rfl := harg5.eq_unread hf5
  obtain rfl := harg6.eq_unread hf6
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [View.read_writes_eq_canon _ _ _ (fun y => ⟨_, List.mem_cons_self, View.mem_set_unit_zero hz2_out inb_S1x8x128_S1x8x128_0_0_0 y⟩),
    View.canon_cons_unit_zero hz2_out]
  sl_unfold_words
  simp only [View.readAt_eq_ld, harg2.read_unread, harg3.read_unread, harg4.read_unread, harg5.read_unread, harg6.read_unread,
    View.ld_unit_zero (S := S1x1024x768) hz2_res, View.ld_unit_zero (S := S1x512x768) hz2_tile, View.ld_unit_zero (S := S1x8x128) hz2_out]

/-- The pipeline's proof data on core `c`: the arrays as the region finds them; after the body at point `t` every
    input's buffer at its block and the output's at the recursion's value; the untouched scoped rest and generator
    register as invariant; nothing owed; the two arrays each read through two windows, so each pair of windows
    splits its array's share. -/
def dat2 (c : Dev nD) : Dat τ (Elt F) Unit ℕ (UR sig nD τ) ℕ cfg2 c where
  A w := V c (Pipeline.arrRef spec2 w)
  after w t := match w with
    | ⟨0, _⟩ => iblk2 V c 0 t | ⟨1, _⟩ => iblk2 V c 1 t | ⟨2, _⟩ => iblk2 V c 2 t | ⟨3, _⟩ => iblk2 V c 3 t
    | ⟨4, _⟩ => outsAt2 V c t.val t.isLt
  Φ _ := Pipeline.ΦA spec2 c
  q w := match w with
    | ⟨0, _⟩ => fullShare.left | ⟨1, _⟩ => fullShare.left | ⟨2, _⟩ => fullShare.right | ⟨3, _⟩ => fullShare.right | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

/-- Each input's current staging buffer holds its block at every point, fetched there or not: where it is not
    fetched its block index has not moved, and the body leaves every input's block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- At an odd position the output's current staging buffer holds what the body left at the position before: the
    position is not the first, the buffer was not written back between (that happens after odd positions only),
    the window is never idle and its blocks are not cut. -/
theorem before2_4_odd (c : Dev nD) (t : Fin cfg2.N) (h : t.val % 2 = 1) (d) :
    (dat2 V c).before 4 t d = outsAt2 V c (t.val - 1) (Nat.lt_of_le_of_lt (Nat.sub_le _ _) t.isLt) := by
  rw [Dat.before_out_kept _ 4 rfl t (by omega) (Bool.eq_false_iff.mpr fun h' => by have := (flush2_4 _).mp h'; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' memrefs hold their blocks; the position's parity says whether the conditional
    is taken; where it is not, the output's memref holds what the position before left; so one of the two runs
    applies, and what it leaves is the recursion's value there. The invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 2 = 0
  · rw [outsAt2_even V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ ((hcond2_0 t).mpr h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h1 : t.val % 2 = 1 := by omega
    rw [outsAt2_odd V c t h1]
    simp only [before2_4_odd V c t h1]
    iintro ⟨HΦ, Ho, ⟨%d0, H0⟩, ⟨%d1, H1⟩, ⟨%d2, H2⟩, ⟨%d3, H3⟩, ⟨%d4, H4⟩⟩
    iapply (sound_kernel2_B c Set.univ (grid2.coords t) _ _ _ _ _ _ _ _ _ _ (fun h => h0 ((hcond2_0 t).mp h))
      (iblk2 V c 0 t) (iblk2 V c 1 t) (iblk2 V c 2 t) (iblk2 V c 3 t)
      (outsAt2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.Shares2.lean ====
/- Region 2's arrays. The third call reads each of the two normalised feature arrays through two windows (a
   whole batch block and a half block of the same batch) and writes its partial sums to a third array. Three
   distinct buffers therefore stand behind five windows. A buffer read by two windows is held by them in halves:
   the full share of a buffer is its left half together with its right half, at the same contents; the output's
   buffer is held whole. This module says that the three buffers, each whole at the full share, are exactly the five
   windowed arrays at those shares, and carries the statement to the core's unscoped buffers: the arrays split out
   of them where the region is entered and joined back into them, at an updated valuation, where it is left. -/
import proofs.«171448_j24077586661772_1_alg».proof.Proof.Gen.KernelIdeal.Launch
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window of region 2 holds its array at: the two readers of one array take its two halves, the output the whole. -/
def sh2 : Fin 5 → PosShare TreeShare
  | ⟨0, _⟩ => fullShare.left | ⟨1, _⟩ => fullShare.left | ⟨2, _⟩ => fullShare.right | ⟨3, _⟩ => fullShare.right | ⟨4, _⟩ => fullShare
  | ⟨_ + 5, h⟩ => absurd h (Nat.not_lt.2 (Nat.le_add_left _ _))

/-- The buffers behind the five windows' arrays are three: the two feature arrays and the output. -/
theorem arrImage2 : Finset.univ.image (Pipeline.arrRef spec2) = [main_v0, main_v1, main_v2].toFinset := by decide

/-- Those three buffers, each whole at the full share, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2)) := by
  unfold Pipeline.arrBufs
  exact bigSep_eq_bigSepL_of_eq [main_v0, main_v1, main_v2] arrImage2 (by decide) _

/-- The five windowed arrays one by one: each array is a whole buffer, held at its window's share, at the
    valuation's contents of the buffer behind it. -/
theorem arrays2_eq {c : Dev nD} (dat : Dat τ (Elt F) Unit ℕ (UR sig nD τ) ℕ cfg2 c) (hs : ∀ w, dat.share w = sh2 w)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (dat.arrays G : sProp 𝕄)
      = iprop((((c : Thread nD τ).loc main_v0) ↦{fullShare.left} V main_v0) ∗ (((c : Thread nD τ).loc main_v1) ↦{fullShare.left} V main_v1)
          ∗ (((c : Thread nD τ).loc main_v0) ↦{fullShare.right} V main_v0) ∗ (((c : Thread nD τ).loc main_v1) ↦{fullShare.right} V main_v1)
          ∗ (((c : Thread nD τ).loc main_v2) ↦{fullShare} V main_v2)) := by
  unfold Dat.arrays
  refine (bigSep_congr (Ψ := fun w : Fin 5 => (((c : Thread nD τ).loc (Pipeline.arrRef spec2 w)) ↦{sh2 w} V (Pipeline.arrRef spec2 w) : sProp 𝕄))
    fun w _ => ?_).trans ((bigSep_W2 _).trans rfl)
  rw [(arr_whole2 w).set_eq_univ, hs, hG]

/-- A buffer whole at the full share is its left half and its right half, at the same contents. -/
theorem whole_halves {c : Dev nD} (b : Ref sig .tc) (f : Buf (Elt F) ((c : Thread nD τ).loc b)) :
    ((((c : Thread nD τ).loc b) ↦{fullShare} f) : sProp 𝕄)
      ⊣⊢ iprop((((c : Thread nD τ).loc b) ↦{fullShare.left} f) ∗ (((c : Thread nD τ).loc b) ↦{fullShare.right} f)) :=
  pointsTo_share (PosShare.mem_left_op_right fullShare)

/-- The three buffers whole are the five windowed arrays: each feature array's full share goes half to its
    whole-block reader and half to its half-block reader, the output's buffer whole to its window. -/
theorem arrays2_iff {c : Dev nD} (dat : Dat τ (Elt F) Unit ℕ (UR sig nD τ) ℕ cfg2 c) (hs : ∀ w, dat.share w = sh2 w)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs (Ix := Unit) (Name := ℕ) (U := UR sig nD τ) (Lvl := ℕ) spec2 c V : sProp 𝕄) ⊣⊢ dat.arrays G := by
  rw [arrBufs2_eq c V, arrays2_eq dat hs V G hG]
  refine ⟨?_, ?_⟩
  · iintro ⟨H0, H1, H2⟩
    ihave H0' := (whole_halves (F := F) (c := c) main_v0 (V main_v0)).1 $$ H0
    ihave H1' := (whole_halves (F := F) (c := c) main_v1 (V main_v1)).1 $$ H1
    icases H0' with ⟨L0, R0⟩
    icases H1' with ⟨L1, R1⟩
    isplitl [L0]; · iexact L0
    isplitl [L1]; · iexact L1
    isplitl [R0]; · iexact R0
    isplitl [R1]; · iexact R1
    iexact H2
  · iintro ⟨L0, L1, R0, R1, H2⟩
    isplitl [L0 R0]
    · iapply (whole_halves (F := F) (c := c) main_v0 (V main_v0)).2
      isplitl [L0]; · iexact L0
      iexact R0
    isplitl [L1 R1]
    · iapply (whole_halves (F := F) (c := c) main_v1 (V main_v1)).2
      isplitl [L1]; · iexact L1
      iexact R1
    iexact H2

/-- ENTRY: the core's unscoped buffers at a valuation are region 2's arrays at that valuation's contents and the
    unscoped rest. -/
theorem arrays2_of_unscopedBufs {c : Dev nD} (dat : Dat τ (Elt F) Unit ℕ (UR sig nD τ) ℕ cfg2 c) (hs : ∀ w, dat.share w = sh2 w)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    (unscopedBufs c V : sProp 𝕄) ⊢ iprop(dat.arrays G ∗ Pipeline.unscopedRest (Ix := Unit) (Name := ℕ) (U := UR sig nD τ) (Lvl := ℕ) spec2 c V) := by
  rw [Pipeline.unscopedBufs_split₀ cfgs (2 : Fin 3) winFacts₀2.arr_unscoped c V]
  exact sep_mono (arrays2_iff dat hs V G hG).1 .rfl

/-- EXIT: region 2's arrays at contents `G` and the unscoped rest at `V` are the core's unscoped buffers at any
    valuation that has the arrays' buffers at `G` and agrees with `V` off them. -/
theorem unscopedBufs_of_arrays2 {c : Dev nD} (dat : Dat τ (Elt F) Unit ℕ (UR sig nD τ) ℕ cfg2 c) (hs : ∀ w, dat.share w = sh2 w)
    (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest (Ix := Unit) (Name := ℕ) (U := UR sig nD τ) (Lvl := ℕ) spec2 c V) ⊢ (unscopedBufs c V' : sProp 𝕄) := by
  rw [Pipeline.unscopedBufs_split₀ cfgs (2 : Fin 3) winFacts₀2.arr_unscoped c V']
  refine sep_mono (arrays2_iff dat hs V' G hG).2 (Entails.of_eq ?_)
  unfold Pipeline.unscopedRest
  exact bigSep_congr fun b hb => by rw [hrest b (Finset.mem_sdiff.mp hb).2]

end Cert.KernelIdeal.Reg

end
-- ==== Proof.MainRun.lean ====
/- The whole program's run. @main is three kernel regions and then four host operations. Between two items
   the TensorCore holds every unscoped buffer whole at a known valuation: the launch contents (`W0`), then after
   each region the same with that region's output array replaced by what its write-backs leave (`W1`, `W2`,
   `W3`: the normalised student array, the normalised teacher array, the per-batch lane blocks), then the host
   operations applied (`W4`). Each region is entered by splitting its arrays out of the held buffers and left by
   putting them back at their final contents; in region 2 the two normalised arrays are each read through two
   windows, which take the two halves of the array's share. Every weakly fair execution ends with every unscoped
   buffer at `W4`. -/
import proofs.«171448_j24077586661772_1_alg».proof.Proof.Norm0
import proofs.«171448_j24077586661772_1_alg».proof.Proof.Norm1
import proofs.«171448_j24077586661772_1_alg».proof.Proof.Gram
import proofs.«171448_j24077586661772_1_alg».proof.Proof.Shares2
import proofs.«171448_j24077586661772_1_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
abbrev E0 (c : Dev nD) (b : Ref sig .tc) : Buf (Elt F) ((c : Thread nD τ).loc b) := W0 m c b
/-- After region 0: `main_v0` holds the normalised student rows. -/
def W1 (c : Dev nD) : Valuation τ sig (Elt F) := Function.update (W0 m c) main_v0 ((dat0 (E0 m) c).arrAt 1 cfg0.N)
abbrev E1 (c : Dev nD) (b : Ref sig .tc) : Buf (Elt F) ((c : Thread nD τ).loc b) := W1 m c b
/-- After region 1: `main_v1` holds the normalised teacher rows. -/
def W2 (c : Dev nD) : Valuation τ sig (Elt F) := Function.update (W1 m c) main_v1 ((dat1 (E1 m) c).arrAt 1 cfg1.N)
abbrev E2 (c : Dev nD) (b : Ref sig .tc) : Buf (Elt F) ((c : Thread nD τ).loc b) := W2 m c b
/-- After region 2: `main_v2` holds the per-batch lane blocks. -/
def W3 (c : Dev nD) : Valuation τ sig (Elt F) := Function.update (W2 m c) main_v2 ((dat2 (E2 m) c).arrAt 4 cfg2.N)
abbrev E3 (c : Dev nD) (b : Ref sig .tc) : Buf (Elt F) ((c : Thread nD τ).loc b) := W3 m c b
/-- After the host operations. -/
abbrev W4 (c : Dev nD) : Valuation τ sig (Elt F) := StableHlo.after hostOps3 (W3 m c)

theorem W1_self (c : Dev nD) : W1 m c main_v0 = (dat0 (E0 m) c).arrAt 1 cfg0.N := by
  unfold W1; exact Function.update_self _ _ _
theorem W1_of_ne (c : Dev nD) (r : Ref sig .tc) (h : r ≠ main_v0) : W1 m c r = W0 m c r := by
  unfold W1; exact Function.update_of_ne (StableHlo.devRef_ne_of_ne h) _ _
theorem W2_self (c : Dev nD) : W2 m c main_v1 = (dat1 (E1 m) c).arrAt 1 cfg1.N := by
  unfold W2; exact Function.update_self _ _ _
theorem W2_of_ne (c : Dev nD) (r : Ref sig .tc) (h : r ≠ main_v1) : W2 m c r = W1 m c r := by
  unfold W2; exact Function.update_of_ne (StableHlo.devRef_ne_of_ne h) _ _
theorem W3_self (c : Dev nD) : W3 m c main_v2 = (dat2 (E2 m) c).arrAt 4 cfg2.N := by
  unfold W3; exact Function.update_self _ _ _
theorem W3_of_ne (c : Dev nD) (r : Ref sig .tc) (h : r ≠ main_v2) : W3 m c r = W2 m c r := by
  unfold W3; exact Function.update_of_ne (StableHlo.devRef_ne_of_ne h) _ _

/-- At a region's exit each of its arrays holds what the pipeline leaves, and every other buffer what it held. -/
theorem hF0 (c : Dev nD) (w : Fin cfg0.W) : (dat0 (E0 m) c).arrAt w cfg0.N = E1 m c (Pipeline.arrRef spec0 w) :=
  match w with
  | ⟨0, _⟩ => (((dat0 (E0 m) c).arrAt_in 0 rfl _).trans (A_eq0 (E0 m) c 0)).trans (W1_of_ne m c main_arg0 (by decide)).symm
  | ⟨1, _⟩ => (W1_self m c).symm
theorem hrest0 (c : Dev nD) : ∀ b, b ∉ Finset.univ.image (Pipeline.arrRef spec0) → E1 m c b = E0 m c b :=
  fun b hb => W1_of_ne m c b fun e => hb (e ▸ Finset.mem_image.mpr ⟨1, Finset.mem_univ _, rfl⟩)
theorem hF1 (c : Dev nD) (w : Fin cfg1.W) : (dat1 (E1 m) c).arrAt w cfg1.N = E2 m c (Pipeline.arrRef spec1 w) :=
  match w with
  | ⟨0, _⟩ => (((dat1 (E1 m) c).arrAt_in 0 rfl _).trans (A_eq1 (E1 m) c 0)).trans (W2_of_ne m c main_arg1 (by decide)).symm
  | ⟨1, _⟩ => (W2_self m c).symm
theorem hrest1 (c : Dev nD) : ∀ b, b ∉ Finset.univ.image (Pipeline.arrRef spec1) → E2 m c b = E1 m c b :=
  fun b hb => W2_of_ne m c b fun e => hb (e ▸ Finset.mem_image.mpr ⟨1, Finset.mem_univ _, rfl⟩)
theorem hF2 (c : Dev nD) (w : Fin cfg2.W) : (dat2 (E2 m) c).arrAt w cfg2.N = E3 m c (Pipeline.arrRef spec2 w) :=
  match w with
  | ⟨0, _⟩ => (((dat2 (E2 m) c).arrAt_in 0 rfl _).trans (A_eq2 (E2 m) c 0)).trans (W3_of_ne m c main_v0 (by decide)).symm
  | ⟨1, _⟩ => (((dat2 (E2 m) c).arrAt_in 1 rfl _).trans (A_eq2 (E2 m) c 1)).trans (W3_of_ne m c main_v1 (by decide)).symm
  | ⟨2, _⟩ => (((dat2 (E2 m) c).arrAt_in 2 rfl _).trans (A_eq2 (E2 m) c 2)).trans (W3_of_ne m c main_v0 (by decide)).symm
  | ⟨3, _⟩ => (((dat2 (E2 m) c).arrAt_in 3 rfl _).trans (A_eq2 (E2 m) c 3)).trans (W3_of_ne m c main_v1 (by decide)).symm
  | ⟨4, _⟩ => (W3_self m c).symm
theorem hrest2 (c : Dev nD) : ∀ b, b ∉ Finset.univ.image (Pipeline.arrRef spec2) → E3 m c b = E2 m c b :=
  fun b hb => W3_of_ne m c b fun e => hb (e ▸ Finset.mem_image.mpr ⟨4, Finset.mem_univ _, rfl⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core's dues, none. -/
abbrev R (c : Dev nD) : sProp 𝕄 := iprop((∃ r, prngReg c r) ∗ ∃ W, owes (c : Thread nD τ) (0 : CellTallies nD τ sig Unit) W)

/-- In region 2 every window holds its array at the share the proof data names. -/
theorem share2 (c : Dev nD) (w : Fin cfg2.W) : (dat2 (E2 m) c).share w = sh2 w :=
  match w with
  | ⟨0, _⟩ => rfl | ⟨1, _⟩ => rfl | ⟨2, _⟩ => rfl | ⟨3, _⟩ => rfl | ⟨4, _⟩ => rfl

set_option backward.isDefEq.respectTransparency.types false in
/-- Region 0 over the thread state: entered with every unscoped buffer at `W0`, left with them at `W1`. Its arrays
    are split out of the unscoped buffers at entry and put back at their final contents at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its arrays
    are split out of the unscoped buffers at entry and put back at their final contents at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. The two
    normalised arrays are each behind two input windows, which hold them at the two halves of the full share. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := arrays2_of_unscopedBufs (dat2 (E2 m) c) (share2 m c) (E2 m c) ((dat2 (E2 m) c).arrAt · 0) (fun w => A_eq2 (E2 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (dat2 (E2 m) c) (share2 m c) (E2 m c) (E3 m c) ((dat2 (E2 m) c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- The host operations after the regions, as a segment from `W3`. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) R

/-- @main's four items in order. -/
abbrev segs : List (Pipeline.Seg (pcfgs (F := F)) adm (pdats m) () defs₀ 𝒱₀ L lv) :=
  [ .region (reg0 m), .region (reg1 m), .region (reg2 m), .host (hseg3 m) ]

set_option backward.isDefEq.respectTransparency.types false in
/-- From any memory with zero counters, every weakly fair execution of @main terminates, nothing faulting, and every
    final memory holds every unscoped buffer of the TensorCore at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := ⟨fun _ => .rfl, fun _ => .rfl, fun _ => .rfl, fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments end as launched: no region's output and no host operation writes one. -/
theorem W4_main_arg0 (c : Dev nD) : W4 m c main_arg0 = m ((c : Thread nD τ).loc main_arg0) :=
  (StableHlo.after_of_writes_sub hostOps3 _ hostOps3_writes (by decide)).trans <|
    (W3_of_ne m c main_arg0 (by decide)).trans <| (W2_of_ne m c main_arg0 (by decide)).trans <| (W1_of_ne m c main_arg0 (by decide)).trans rfl
theorem W4_main_arg1 (c : Dev nD) : W4 m c main_arg1 = m ((c : Thread nD τ).loc main_arg1) :=
  (StableHlo.after_of_writes_sub hostOps3 _ hostOps3_writes (by decide)).trans <|
    (W3_of_ne m c main_arg1 (by decide)).trans <| (W2_of_ne m c main_arg1 (by decide)).trans <| (W1_of_ne m c main_arg1 (by decide)).trans rfl

/-- The frame: every execution ends with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_main m ρ)

end Cert.KernelIdeal.Reg

end
-- ==== Proof.Spec.lean ====
/- What the two programs compute, as formulas on the extended reals over typed indices.

   Both normalise every row of the two [32,1024,768] inputs by max(sqrt(sum of squares), eps), take per batch
   the 1024x1024 Gram matrices of the normalised rows, clamp them below at 0, and average the squared
   difference over all 32*1024*1024 entries. The reference sums the squared differences at once (`refVal`).
   The kernel sums them tile by tile: per batch b and half j of the columns a tile total (`tile`), each
   scaled by 2^-10 and accumulated into a lane value that is then replicated over 8*128 = 1024 lanes, all of
   which the host sums (`kerVal`). The lane count undoes the scale, so the two agree (`kerVal_eq_refVal`). -/
import Idealize.ShloMosaic.PureOps.Ideal
import Idealize.ShloMosaic.PureOps.Ideal.Laws
import Mathlib.Data.EReal.Operations

noncomputable section

namespace Cert.Spec

open Idealize.ShloMosaic

/-- An input, or a normalised input: batch, row, feature. -/
abbrev A3 : Type := Fin 32 → Fin 1024 → Fin 768 → EReal

/-- The three float literals of the programs, as the values their words denote. -/
def eps : EReal := Ideal.ofBits .f32 0x2B8CBCCC#32
def cnt : EReal := Ideal.ofBits .f32 0x4C000000#32
def lane : EReal := Ideal.ofBits .f32 0x3A800000#32

/-- The divisor of row (b, n): its Euclidean norm, clamped below at eps. -/
def rowNorm (x : A3) (b : Fin 32) (n : Fin 1024) : EReal :=
  max (Ideal.sqrt (∑ k : Fin 768, x b n k * x b n k)) eps

/-- The input with every row divided by its clamped norm. -/
def nrm (x : A3) : A3 := fun b n d => Ideal.div (x b n d) (rowNorm x b n)

/-- Entry (n, m) of batch b's Gram matrix. -/
def gram (s : A3) (b : Fin 32) (n m : Fin 1024) : EReal := ∑ k : Fin 768, s b n k * s b m k

/-- The squared difference of the two clamped Gram entries. -/
def dsq (s t : A3) (b : Fin 32) (n m : Fin 1024) : EReal :=
  (max (gram s b n m) 0 - max (gram t b n m) 0) * (max (gram s b n m) 0 - max (gram t b n m) 0)

/-- The reference: the sum over every entry, divided by the count. -/
def refVal (x y : A3) : EReal :=
  Ideal.div (∑ b : Fin 32, ∑ n : Fin 1024, ∑ m : Fin 1024, dsq (nrm x) (nrm y) b n m) cnt

/-- Column m' of the j-th half of the columns. -/
def col (j : Fin 2) (m' : Fin 512) : Fin 1024 := ⟨512 * j.val + m'.val, by have := j.isLt; have := m'.isLt; omega⟩

/-- The kernel's total over tile (b, j): rows first, then the tile's 512 columns. -/
def tile (s t : A3) (b : Fin 32) (j : Fin 2) : EReal :=
  ∑ n : Fin 1024, ∑ m' : Fin 512, dsq s t b n (col j m')

/-- What every lane of batch b's [8,128] output block holds after its two tiles: reset to 0, then each tile's
    total times 2^-10 added. -/
def laneVal (s t : A3) (b : Fin 32) : EReal := (0 + tile s t b 0 * lane) + tile s t b 1 * lane

/-- The kernel: the host's sum of all 32*8*128 lanes, divided by the count. -/
def kerVal (x y : A3) : EReal :=
  Ideal.div (∑ b : Fin 32, ∑ r : Fin 8, ∑ l : Fin 128, laneVal (nrm x) (nrm y) b) cnt

end Cert.Spec

end
-- ==== Proof.NormValue.lean ====
/- What regions 0 and 1 leave in their output arrays, on the extended reals.

   Either region's grid has 32 points; point b stages block [b, :, :] of the [32,1024,768] input and writes
   back block [b, :, :] of the output. The body's payload, read at entry (u, n, d) of the [1,1024,768] block,
   is the block's entry (0, n, d) divided by max(sqrt(sum over the 768 features k of the square of entry
   (0, n, k)), eps): the leading unit axis is dropped and put back by shape casts, the lane sum is a sum over
   Fin 768, the column of norms is spread over the lanes, and the final change of float format is the identity
   on the extended reals. Since the block at point b is batch b of the array, what point b writes back is batch
   b of the normalised array `Spec.nrm`; the 32 blocks tile the array (the block covering batch b is point b's),
   so the output array ends as `Spec.nrm` of the input array, index by index. -/
import proofs.«171448_j24077586661772_1_alg».proof.Proof.Norm0
import proofs.«171448_j24077586661772_1_alg».proof.Proof.Norm1
import proofs.«171448_j24077586661772_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.ValueIdx Idealize.ShloMosaic.TcCoe Idealize.SL.Sem
open Idealize.ShloMosaic.Pipeline (Dat)

/-! ## Two layout operations read at an index: a vector as a column, a column spread over the lanes -/

/-- An `[a]` vector cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The sum of squares along the lanes: the lane reduction of the squared block at row `n` is the sum over the 768 features. -/
theorem rowSq_apply (v : FVec Ideal S1024x768 .f32) (h : S1024x768.Reduces [1] S1024) (hφ : FKind.Formats .f32)
    (hacc : (0x00000000#32 : BitVec 32) = FKind.add.neutral .f32 hφ) (n : Fin 1024) :
    multiReduction (F := Ideal) .add [1] S1024 (mulf v v) 0x00000000#32 h hφ hacc (ix1 n) = ∑ k : Fin 768, v (ix2 n k) * v (ix2 n k) := by
  refine (Ideal.multiReduction_add_single (mulf v v) 0x00000000#32 h hφ hacc (ix1 n)).trans ?_
  show ∑ k : Fin 768, mulf v v (h.lift (ix1 n) k) = _
  refine Finset.sum_congr rfl fun k _ => ?_
  have e : h.lift (ix1 n) k = ix2 n k := funext fun c => Fin.ext (match c with | ⟨0, _⟩ => rfl | ⟨1, _⟩ => rfl)
  rw [e]
  rfl

/-- The payload of either normalisation body at `(u, n, d)`: the block's entry `(0, n, d)` divided by the clamped norm of row `n`. -/
theorem pay0_apply (x : Vec Ideal S1x1024x768 .f32) (u : Fin 1) (n : Fin 1024) (d : Fin 768) :
    k0_pay1 (F := Ideal) x (ix3 u n d)
      = Ideal.div (x (ix3 (0 : Fin 1) n d)) (max (Ideal.sqrt (∑ k : Fin 768, x (ix3 (0 : Fin 1) n k) * x (ix3 (0 : Fin 1) n k))) Cert.Spec.eps) := by
  unfold k0_pay1
  refine (shapeCast_ab_1ab_apply _ _ u n d).trans ?_
  refine congrArg₂ Ideal.div (shapeCast_1ab_ab_apply x _ n d) ?_
  refine (broadcastTo_a1_ab_apply _ _ n d).trans ?_
  refine congrArg₂ max (congrArg Ideal.sqrt ?_) rfl
  refine (shapeCast_a_a1_apply _ _ n 0).trans ?_
  refine (rowSq_apply _ _ _ _ n).trans ?_
  refine Finset.sum_congr rfl fun k _ => ?_
  rw [shapeCast_1ab_ab_apply x _ n k]

/-! ## From the blocks to the arrays -/

/-- An array of shape [32,1024,768] as a function of typed indices. -/
def curry3 (x : S32x1024x768.Idx → EReal) : Cert.Spec.A3 := fun b n d => x (ix3 b n d)

/-- A block that holds batch `b` of an array `X`, put through the body's payload, holds batch `b` of the normalised `X`:
    entry `(u, n, d)` of the result is entry `(b, n, d)` of `Spec.nrm`, read at any array index `i` with those coordinates. -/
theorem pay0_eq_nrm (X : S32x1024x768.Idx → EReal) (x : Vec Ideal S1x1024x768 .f32) (b : Fin 32)
    (hx : ∀ (n : Fin 1024) (d : Fin 768), x (ix3 (0 : Fin 1) n d) = X (ix3 b n d))
    (j : S1x1024x768.Idx) (i : S32x1024x768.Idx) (h0 : (i 0).val = b.val) (h1 : (i 1).val = (j 1).val) (h2 : (i 2).val = (j 2).val) :
    k0_pay1 (F := Ideal) x j = Cert.Spec.nrm (curry3 X) (i 0) (i 1) (i 2) := by
  obtain ⟨u, n, d, rfl⟩ : ∃ (u : Fin 1) (n : Fin 1024) (d : Fin 768), j = ix3 u n d := ⟨j 0, j 1, j 2, eq_ix3 j⟩
  obtain ⟨b', n', d', rfl⟩ : ∃ (b' : Fin 32) (n' : Fin 1024) (d' : Fin 768), i = ix3 b' n' d' := ⟨i 0, i 1, i 2, eq_ix3 i⟩
  obtain rfl : b' = b := Fin.ext h0
  obtain rfl : n' = n := Fin.ext h1
  obtain rfl : d' = d := Fin.ext h2
  rw [pay0_apply]
  simp only [hx]
  rfl

variable (V : (c : Dev nD) → (b : Ref sig .tc) → Buf (Elt Ideal) ((c : Thread nD τ).loc b))

theorem hz3 : (![0, 0, 0] : Fin 3 → Nat) = fun _ => 0 := funext fun a => by fin_cases a <;> rfl

/-! ### Region 0 -/

/-- Both windows of region 0 sit at block (t, 0, 0) at grid point `t`. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What region 0 leaves in its output array: the normalised student features. -/
def G0 (c : Dev nD) : S32x1024x768.Idx → EReal := fun i => Cert.Spec.nrm (curry3 (V c main_arg0)) (i 0) (i 1) (i 2)

/-- Point `t` writes back block `t` of `G0`. -/
theorem flushed0_eq (c : Dev nD) (t : Fin cfg0.N) :
    (dat0 (F := Ideal) V c).flushed 1 t = ((cfg0.win 1).blk t).view.read (Elt Ideal) (G0 V c) := by
  show (cfg0.win 1).cut (grid0.coords t) ((dat0 (F := Ideal) V c).after 1 t) = _
  rw [after0_1]
  unfold out0_1
  rw [View.canon_unit_zero hz3]
  simp only [View.ld_unit_zero (S := S1x1024x768) hz3]
  obtain ⟨e0, e1, e2, e3, e4, e5⟩ := idx_facts0 t
  have hN : cfg0.N = 32 := N_0
  funext j
  show k0_pay1 (F := Ideal) (iblk0 V c 0 t) j = Cert.Spec.nrm (curry3 (V c main_arg0)) ((((cfg0.win 1).blk t).view.emb j) 0) ((((cfg0.win 1).blk t).view.emb j) 1) ((((cfg0.win 1).blk t).view.emb j) 2)
  refine pay0_eq_nrm (V c main_arg0) (iblk0 V c 0 t) ⟨t.val, by omega⟩ (fun n d => ?_) j (((cfg0.win 1).blk t).view.emb j) ?_ ?_ ?_
  · show V c main_arg0 (((cfg0.win 0).blk t).view.emb (ix3 (0 : Fin 1) n d)) = V c main_arg0 (ix3 (⟨t.val, by omega⟩ : Fin 32) n d)
    refine congrArg _ (funext fun a => Fin.ext ?_)
    match a with
    | ⟨0, _⟩ => show win0_0.index t (0 : Fin 3) * 1 + 1 * (0 : Nat) = t.val; omega
    | ⟨1, _⟩ => show win0_0.index t (1 : Fin 3) * 1024 + 1 * n.val = n.val; omega
    | ⟨2, _⟩ => show win0_0.index t (2 : Fin 3) * 768 + 1 * d.val = d.val; omega
  · show win0_1.index t (0 : Fin 3) * 1 + 1 * (j 0).val = t.val
    have hj : (j 0).val < 1 := (j 0).isLt
    omega
  · show win0_1.index t (1 : Fin 3) * 1024 + 1 * (j 1).val = (j 1).val; omega
  · show win0_1.index t (2 : Fin 3) * 768 + 1 * (j 2).val = (j 2).val; omega

/-- An index of the output array is in point `t`'s block iff each coordinate is in the block's range on its axis. -/
theorem mem_blk0 (t : Fin cfg0.N) (i : S32x1024x768.Idx) :
    i ∈ ((cfg0.win 1).blk t).view.set ↔ ∀ a : Fin 3, win0_1.index t a * S1x1024x768.size a ≤ (i a).val ∧ (i a).val < win0_1.index t a * S1x1024x768.size a + S1x1024x768.size a := by
  show i ∈ ((View.whole main_v0).slice (win0_1.rect t)).set ↔ _
  rw [View.set_slice_whole, Rect.mem_set_unit]
  exact Iff.rfl

/-- Region 0 leaves the normalised student features in its output array: the block of batch `b` is written back at point `b`. -/
theorem norm0_final (c : Dev nD) :
    (dat0 (F := Ideal) V c).arrAt 1 cfg0.N = fun i => Cert.Spec.nrm (curry3 (V c main_arg0)) (i 0) (i 1) (i 2) := by
  refine (dat0 (F := Ideal) V c).arrAt_eq_of_cover 1 (G0 V c) (fun t _ => flushed0_eq V c t) fun i => ?_
  have hN : cfg0.N = 32 := N_0
  have hi0 : (i 0).val < 32 := (i 0).isLt
  have hi1 : (i 1).val < 1024 := (i 1).isLt
  have hi2 : (i 2).val < 768 := (i 2).isLt
  refine ⟨⟨(i 0).val, by omega⟩, flush0_1 _, ?_⟩
  obtain ⟨e0, e1, e2, e3, e4, e5⟩ := idx_facts0 ⟨(i 0).val, by omega⟩
  rw [mem_blk0]
  intro a
  match a with
  | ⟨0, _⟩ => show win0_1.index _ (0 : Fin 3) * 1 ≤ (i 0).val ∧ (i 0).val < win0_1.index _ (0 : Fin 3) * 1 + 1; rw [e3]; show (i 0).val * 1 ≤ (i 0).val ∧ (i 0).val < (i 0).val * 1 + 1; omega
  | ⟨1, _⟩ => show win0_1.index _ (1 : Fin 3) * 1024 ≤ (i 1).val ∧ (i 1).val < win0_1.index _ (1 : Fin 3) * 1024 + 1024; rw [e4]; omega
  | ⟨2, _⟩ => show win0_1.index _ (2 : Fin 3) * 768 ≤ (i 2).val ∧ (i 2).val < win0_1.index _ (2 : Fin 3) * 768 + 768; rw [e5]; omega

/-! ### Region 1 -/

/-- Both windows of region 1 sit at block (t, 0, 0) at grid point `t`. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- What region 1 leaves in its output array: the normalised teacher features. -/
def G1 (c : Dev nD) : S32x1024x768.Idx → EReal := fun i => Cert.Spec.nrm (curry3 (V c main_arg1)) (i 0) (i 1) (i 2)

/-- Point `t` writes back block `t` of `G1` (region 1's payload is the same term as region 0's). -/
theorem flushed1_eq (c : Dev nD) (t : Fin cfg1.N) :
    (dat1 (F := Ideal) V c).flushed 1 t = ((cfg1.win 1).blk t).view.read (Elt Ideal) (G1 V c) := by
  show (cfg1.win 1).cut (grid1.coords t) ((dat1 (F := Ideal) V c).after 1 t) = _
  rw [after1_1]
  unfold out1_1
  rw [View.canon_unit_zero hz3]
  simp only [View.ld_unit_zero (S := S1x1024x768) hz3]
  obtain ⟨e0, e1, e2, e3, e4, e5⟩ := idx_facts1 t
  have hN : cfg1.N = 32 := N_1
  funext j
  show k0_pay1 (F := Ideal) (iblk1 V c 0 t) j = Cert.Spec.nrm (curry3 (V c main_arg1)) ((((cfg1.win 1).blk t).view.emb j) 0) ((((cfg1.win 1).blk t).view.emb j) 1) ((((cfg1.win 1).blk t).view.emb j) 2)
  refine pay0_eq_nrm (V c main_arg1) (iblk1 V c 0 t) ⟨t.val, by omega⟩ (fun n d => ?_) j (((cfg1.win 1).blk t).view.emb j) ?_ ?_ ?_
  · show V c main_arg1 (((cfg1.win 0).blk t).view.emb (ix3 (0 : Fin 1) n d)) = V c main_arg1 (ix3 (⟨t.val, by omega⟩ : Fin 32) n d)
    refine congrArg _ (funext fun a => Fin.ext ?_)
    match a with
    | ⟨0, _⟩ => show win1_0.index t (0 : Fin 3) * 1 + 1 * (0 : Nat) = t.val; omega
    | ⟨1, _⟩ => show win1_0.index t (1 : Fin 3) * 1024 + 1 * n.val = n.val; omega
    | ⟨2, _⟩ => show win1_0.index t (2 : Fin 3) * 768 + 1 * d.val = d.val; omega
  · show win1_1.index t (0 : Fin 3) * 1 + 1 * (j 0).val = t.val
    have hj : (j 0).val < 1 := (j 0).isLt
    omega
  · show win1_1.index t (1 : Fin 3) * 1024 + 1 * (j 1).val = (j 1).val; omega
  · show win1_1.index t (2 : Fin 3) * 768 + 1 * (j 2).val = (j 2).val; omega

/-- An index of the output array is in point `t`'s block iff each coordinate is in the block's range on its axis. -/
theorem mem_blk1 (t : Fin cfg1.N) (i : S32x1024x768.Idx) :
    i ∈ ((cfg1.win 1).blk t).view.set ↔ ∀ a : Fin 3, win1_1.index t a * S1x1024x768.size a ≤ (i a).val ∧ (i a).val < win1_1.index t a * S1x1024x768.size a + S1x1024x768.size a := by
  show i ∈ ((View.whole main_v1).slice (win1_1.rect t)).set ↔ _
  rw [View.set_slice_whole, Rect.mem_set_unit]
  exact Iff.rfl

/-- Region 1 leaves the normalised teacher features in its output array: the block of batch `b` is written back at point `b`. -/
theorem norm1_final (c : Dev nD) :
    (dat1 (F := Ideal) V c).arrAt 1 cfg1.N = fun i => Cert.Spec.nrm (curry3 (V c main_arg1)) (i 0) (i 1) (i 2) := by
  refine (dat1 (F := Ideal) V c).arrAt_eq_of_cover 1 (G1 V c) (fun t _ => flushed1_eq V c t) fun i => ?_
  have hN : cfg1.N = 32 := N_1
  have hi0 : (i 0).val < 32 := (i 0).isLt
  have hi1 : (i 1).val < 1024 := (i 1).isLt
  have hi2 : (i 2).val < 768 := (i 2).isLt
  refine ⟨⟨(i 0).val, by omega⟩, flush1_1 _, ?_⟩
  obtain ⟨e0, e1, e2, e3, e4, e5⟩ := idx_facts1 ⟨(i 0).val, by omega⟩
  rw [mem_blk1]
  intro a
  match a with
  | ⟨0, _⟩ => show win1_1.index _ (0 : Fin 3) * 1 ≤ (i 0).val ∧ (i 0).val < win1_1.index _ (0 : Fin 3) * 1 + 1; rw [e3]; show (i 0).val * 1 ≤ (i 0).val ∧ (i 0).val < (i 0).val * 1 + 1; omega
  | ⟨1, _⟩ => show win1_1.index _ (1 : Fin 3) * 1024 ≤ (i 1).val ∧ (i 1).val < win1_1.index _ (1 : Fin 3) * 1024 + 1024; rw [e4]; omega
  | ⟨2, _⟩ => show win1_1.index _ (2 : Fin 3) * 768 ≤ (i 2).val ∧ (i 2).val < win1_1.index _ (2 : Fin 3) * 768 + 768; rw [e5]; omega

end Cert.KernelIdeal.Val

end
-- ==== Proof.GramPayload.lean ====
/- Region 2's two payloads read at an index, at the ideal values.

   The first payload is the zero word replicated over the [1,8,128] output block, so it reads 0 everywhere.
   The second takes the two resident [1,1024,768] blocks, the two [1,512,768] tile blocks and the output block's
   contents. With the unit axis dropped and the tiles transposed, each of its two products into zero accumulators has
   entry (n, m') equal to the sum over the 768 features of resident row n times tile row m'. Both are clamped below at
   0, subtracted and squared; the squares are summed over the 512 columns, then over the 1024 rows; the total is
   multiplied by the word of 2^-10 and replicated over the block, where it is added to the contents. So at every
   index the payload reads the contents there plus that total times 2^-10. -/
import proofs.«171448_j24077586661772_1_alg».proof.Proof.Gen.KernelIdeal.Skeleton
import proofs.«171448_j24077586661772_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx

/-- The first payload reads 0 at every index: it replicates the zero word. -/
theorem pay1_apply (i : S1x8x128.Idx) : k2_pay1 (F := Ideal) i = 0 := by
  unfold k2_pay1
  exact Ideal.ofBits_zero_f32

/-! ## The product's index maps, axis by axis -/

theorem lhs_gram_0 (i : S1024x512.Idx) (q : dot_S1024x768_S768x512_S1024x512_1_0_0_1_n_n.contr.Idx) :
    (dot_S1024x768_S768x512_S1024x512_1_0_0_1_n_n.lhsIdx i q 0).val = (i 0).val := by
  unfold DotDims.lhsIdx
  rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
  rfl
theorem lhs_gram_1 (i : S1024x512.Idx) (q : dot_S1024x768_S768x512_S1024x512_1_0_0_1_n_n.contr.Idx) :
    (dot_S1024x768_S768x512_S1024x512_1_0_0_1_n_n.lhsIdx i q 1).val = (q ⟨0, by decide⟩).val :=
  dot_S1024x768_S768x512_S1024x512_1_0_0_1_n_n.lhsIdx_val_of_single rfl i q
theorem rhs_gram_0 (i : S1024x512.Idx) (q : dot_S1024x768_S768x512_S1024x512_1_0_0_1_n_n.contr.Idx) :
    (dot_S1024x768_S768x512_S1024x512_1_0_0_1_n_n.rhsIdx i q 0).val = (q ⟨0, by decide⟩).val :=
  dot_S1024x768_S768x512_S1024x512_1_0_0_1_n_n.rhsIdx_val_of_single rfl i q
theorem rhs_gram_1 (i : S1024x512.Idx) (q : dot_S1024x768_S768x512_S1024x512_1_0_0_1_n_n.contr.Idx) :
    (dot_S1024x768_S768x512_S1024x512_1_0_0_1_n_n.rhsIdx i q 1).val = (i 1).val := by
  unfold DotDims.rhsIdx
  rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
  rfl

/-- A [1024,768] by [768,512] product into the zero accumulator reads, at (n, m'), the sum over the contracted
    coordinate of the left operand at (n, k) times the right at (k, m'). -/
theorem matmul_zero_apply (a : FVec Ideal S1024x768 .bf16) (b : FVec Ideal S768x512 .bf16) (n : Fin 1024) (m' : Fin 512) :
    matmul dot_S1024x768_S768x512_S1024x512_1_0_0_1_n_n none a b (constant (F := Ideal) S1024x512 .f32 0x00000000#32) (ix2 n m')
      = ∑ k : Fin 768, a (ix2 n k) * b (ix2 k m') := by
  refine (Ideal.matmul_constant_zero_apply dot_S1024x768_S768x512_S1024x512_1_0_0_1_n_n none a b (ix2 n m')).trans ?_
  rw [← Equiv.sum_comp (contrEquiv1 dot_S1024x768_S768x512_S1024x512_1_0_0_1_n_n 768 rfl rfl).symm]
  refine Finset.sum_congr rfl fun k _ => ?_
  have hk := contrEquiv1_symm_val dot_S1024x768_S768x512_S1024x512_1_0_0_1_n_n 768 rfl rfl k
  have el : dot_S1024x768_S768x512_S1024x512_1_0_0_1_n_n.lhsIdx (ix2 n m') ((contrEquiv1 dot_S1024x768_S768x512_S1024x512_1_0_0_1_n_n 768 rfl rfl).symm k) = ix2 n k := funext fun c => Fin.ext (by
    match c with
    | ⟨0, _⟩ => exact lhs_gram_0 _ _
    | ⟨1, _⟩ => exact (lhs_gram_1 _ _).trans hk)
  have er : dot_S1024x768_S768x512_S1024x512_1_0_0_1_n_n.rhsIdx (ix2 n m') ((contrEquiv1 dot_S1024x768_S768x512_S1024x512_1_0_0_1_n_n 768 rfl rfl).symm k) = ix2 k m' := funext fun c => Fin.ext (by
    match c with
    | ⟨0, _⟩ => exact (rhs_gram_0 _ _).trans hk
    | ⟨1, _⟩ => exact rhs_gram_1 _ _)
  rw [el, er]

/-- One of the payload's two products: the resident block with its unit axis dropped, against the tile block with its
    unit axis dropped and transposed, into the zero accumulator. Entry (n, m') is resident row n against tile row m'. -/
theorem gram_apply (x : FVec Ideal S1x1024x768 .bf16) (y : FVec Ideal S1x512x768 .bf16) (n : Fin 1024) (m' : Fin 512) :
    matmul dot_S1024x768_S768x512_S1024x512_1_0_0_1_n_n none
        (shapeCast S1024x768 x shapeCasts_S1x1024x768_S1024x768)
        (transpose S768x512 [1, 0] (shapeCast S512x768 y shapeCasts_S1x512x768_S512x768) transposes_S512x768_p1_0_S768x512)
        (constant (F := Ideal) S1024x512 .f32 0x00000000#32) (ix2 n m')
      = ∑ k : Fin 768, x (ix3 0 n k) * y (ix3 0 m' k) := by
  refine (matmul_zero_apply _ _ n m').trans ?_
  refine Finset.sum_congr rfl fun k _ => ?_
  rw [shapeCast_1ab_ab_apply x shapeCasts_S1x1024x768_S1024x768 n k,
    transpose_ix2_apply (shapeCast S512x768 y shapeCasts_S1x512x768_S512x768) transposes_S512x768_p1_0_S768x512 k m',
    shapeCast_1ab_ab_apply y shapeCasts_S1x512x768_S512x768 m' k]

/-! ## The two sums and the layout steps between them -/

/-- The sum over the 512 columns: at row n, the sum of the row's entries. -/
theorem colSum_apply (src : FVec Ideal S1024x512 .f32) (n : Fin 1024) :
    multiReduction (F := Ideal) .add [1] S1024 src 0x00000000#32 reduces_S1024x512_S1024 (.inl rfl) rfl (ix1 n)
      = ∑ m' : Fin 512, src (ix2 n m') := by
  refine (Ideal.multiReduction_add_single src 0x00000000#32 reduces_S1024x512_S1024 (.inl rfl) rfl (ix1 n)).trans ?_
  refine Finset.sum_congr rfl fun k _ => congrArg src (funext fun c => Fin.ext ?_)
  match c with
  | ⟨0, _⟩ => rfl
  | ⟨1, _⟩ => rfl

/-- A [1024] vector shaped as a [1024,1] column reads, at (n, u), the vector at n. -/
theorem column_apply (v : FVec Ideal S1024 .f32) (n : Fin 1024) (u : Fin 1) :
    shapeCast S1024x1 v shapeCasts_S1024_S1024x1 (ix2 n u) = v (ix1 n) :=
  shapeCast_apply v shapeCasts_S1024_S1024x1 _ _ (by
    have hu : u.val = 0 := by omega
    rw [Shape.rowMajor_val_two, Shape.rowMajor_val_one]
    show n.val = n.val * 1 + u.val
    rw [hu, Nat.mul_one, Nat.add_zero])

/-- The sum over the 1024 rows of a column: the sum of its entries. -/
theorem rowSum_apply (src : FVec Ideal S1024x1 .f32) (u : Fin 1) :
    multiReduction (F := Ideal) .add [0] S1 src 0x00000000#32 reduces_S1024x1_S1 (.inl rfl) rfl (ix1 u)
      = ∑ n : Fin 1024, src (ix2 n u) := by
  refine (Ideal.multiReduction_add_single src 0x00000000#32 reduces_S1024x1_S1 (.inl rfl) rfl (ix1 u)).trans ?_
  refine Finset.sum_congr rfl fun k _ => congrArg src (funext fun c => Fin.ext ?_)
  match c with
  | ⟨0, _⟩ => rfl
  | ⟨1, _⟩ => rfl

/-- A [1,1,1] value replicated over the [1,8,128] block reads its one entry everywhere. -/
theorem replicate_apply (v : FVec Ideal S1x1x1 .f32) (a : Fin 1) (r : Fin 8) (l : Fin 128) :
    broadcastTo S1x8x128 v broadcasts_S1x1x1_S1x8x128 (ix3 a r l) = v (ix3 0 0 0) :=
  broadcastTo_apply v broadcasts_S1x1x1_S1x8x128 (ix3 a r l) (ix3 0 0 0) fun c => by
    match c with
    | ⟨0, _⟩ => exact (if_pos rfl).symm
    | ⟨1, _⟩ => exact (if_pos rfl).symm
    | ⟨2, _⟩ => exact (if_pos rfl).symm

/-! ## The second payload -/

/-- The squared difference of the two clamped products: row n of the resident blocks against row m' of the tile blocks. -/
def dsqB (xs xt : Vec Ideal S1x1024x768 .bf16) (ks kt : Vec Ideal S1x512x768 .bf16) (n : Fin 1024) (m' : Fin 512) : EReal :=
  (max (∑ k : Fin 768, xs (ix3 0 n k) * ks (ix3 0 m' k)) 0 - max (∑ k : Fin 768, xt (ix3 0 n k) * kt (ix3 0 m' k)) 0)
    * (max (∑ k : Fin 768, xs (ix3 0 n k) * ks (ix3 0 m' k)) 0 - max (∑ k : Fin 768, xt (ix3 0 n k) * kt (ix3 0 m' k)) 0)

/-- The zero word is 0. -/
theorem zero_word : Scalar.ofBits (F := Ideal) .f32 0x00000000#32 = 0 := Ideal.ofBits_zero_f32

/-- Everything after the squares, over any [1024,512] array of them: summed over the columns, shaped as a column,
    summed over the rows, shaped [1,1], multiplied by the word of 2^-10, shaped [1,1,1], replicated over the block and
    added to the contents. At every index: the contents there plus the array's total times 2^-10. -/
theorem total_apply (sq : FVec Ideal S1024x512 .f32) (xo : FVec Ideal S1x8x128 .f32) (a : Fin 1) (r : Fin 8) (l : Fin 128) :
    addf (shapeCast S1x8x128 xo shapeCasts_S1x8x128_S1x8x128)
      (broadcastTo S1x8x128
        (shapeCast S1x1x1
          (mulf
            (shapeCast S1x1
              (multiReduction (F := Ideal) .add [0] S1
                (shapeCast S1024x1
                  (multiReduction (F := Ideal) .add [1] S1024 sq 0x00000000#32 reduces_S1024x512_S1024 (.inl rfl) rfl)
                  shapeCasts_S1024_S1024x1)
                0x00000000#32 reduces_S1024x1_S1 (.inl rfl) rfl)
              shapeCasts_S1_S1x1)
            (broadcast S1x1 (Scalar.ofBits (F := Ideal) .f32 0x3A800000#32)))
          shapeCasts_S1x1_S1x1x1)
        broadcasts_S1x1x1_S1x8x128) (ix3 a r l)
      = xo (ix3 a r l) + (∑ n : Fin 1024, ∑ m' : Fin 512, sq (ix2 n m')) * Cert.Spec.lane := by
  refine congrArg₂ (· + ·) (congrFun (shapeCast_self xo shapeCasts_S1x8x128_S1x8x128) (ix3 a r l)) ?_
  refine (replicate_apply _ a r l).trans ?_
  refine (shapeCast_ab_1ab_apply _ shapeCasts_S1x1_S1x1x1 0 0 0).trans ?_
  refine congrArg₂ (· * ·) ?_ rfl
  refine (shapeCast_a_1a_apply _ shapeCasts_S1_S1x1 0 0).trans ?_
  refine (rowSum_apply _ 0).trans ?_
  refine Finset.sum_congr rfl fun n _ => ?_
  refine (column_apply _ n 0).trans ?_
  exact colSum_apply sq n

/-- The second payload reads, at every index, the contents there plus the total of the squared differences over the
    1024 rows and the tile's 512 columns, times 2^-10. -/
theorem pay2_apply (xs xt : Vec Ideal S1x1024x768 .bf16) (ks kt : Vec Ideal S1x512x768 .bf16) (xo : Vec Ideal S1x8x128 .f32) (i : S1x8x128.Idx) :
    k2_pay2 (F := Ideal) xs xt ks kt xo i = xo i + (∑ n : Fin 1024, ∑ m' : Fin 512, dsqB xs xt ks kt n m') * Cert.Spec.lane := by
  obtain ⟨a, r, l, rfl⟩ : ∃ (a : Fin 1) (r : Fin 8) (l : Fin 128), i = ix3 a r l := ⟨i 0, i 1, i 2, eq_ix3 i⟩
  unfold k2_pay2
  refine (total_apply _ xo a r l).trans ?_
  refine congrArg (fun t => xo (ix3 a r l) + t * Cert.Spec.lane)
    (Finset.sum_congr rfl fun n _ => Finset.sum_congr rfl fun m' _ => ?_)
  unfold dsqB
  simp only [mulf_apply, subf_apply, maximumf_apply, broadcast_apply]
  rw [gram_apply xs ks n m', gram_apply xt kt n m', zero_word]

end Cert.KernelIdeal.Val

end
-- ==== Proof.GramValue.lean ====
/- Region 2's output array after the run, read at every index.

   Grid point p = 2 b + j stages batch b's two resident [1,1024,768] blocks and the j-th [1,512,768] tiles of the
   same two arrays, so resident row n is row n of batch b and tile row m' is row 512 j + m' of batch b. Hence
   the squared clamped-product difference the body forms from the staged blocks at (n, m') is the specification's
   squared difference of batch b at (n, 512 j + m'), and its total over the tile is the specification's tile
   total. After the odd point 2 b + 1 the output block holds, at every index, zero plus the first tile's total
   times 2^-10 plus the second's: the specification's lane value of batch b. That point writes the block back
   to rows [b, b + 1) of the [32,8,128] array, and the odd points cover the array, so the array ends holding,
   at index (b, r, l), the lane value of batch b. -/
import proofs.«171448_j24077586661772_1_alg».proof.Proof.Gram
import proofs.«171448_j24077586661772_1_alg».proof.Proof.GramPayload
import proofs.«171448_j24077586661772_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The index maps over the grid -/

/-- At point p = 2 b + j: the resident windows and the output window sit at block (b, 0, 0), the tile windows
    at block (b, j, 0). -/
theorem idx_facts : ∀ p : Fin cfg2.N,
    win2_0.index p (0 : Fin 3) = p.val / 2 ∧ win2_0.index p (1 : Fin 3) = 0 ∧ win2_0.index p (2 : Fin 3) = 0
    ∧ win2_1.index p (0 : Fin 3) = p.val / 2 ∧ win2_1.index p (1 : Fin 3) = 0 ∧ win2_1.index p (2 : Fin 3) = 0
    ∧ win2_2.index p (0 : Fin 3) = p.val / 2 ∧ win2_2.index p (1 : Fin 3) = p.val % 2 ∧ win2_2.index p (2 : Fin 3) = 0
    ∧ win2_3.index p (0 : Fin 3) = p.val / 2 ∧ win2_3.index p (1 : Fin 3) = p.val % 2 ∧ win2_3.index p (2 : Fin 3) = 0
    ∧ win2_4.index p (0 : Fin 3) = p.val / 2 ∧ win2_4.index p (1 : Fin 3) = 0 ∧ win2_4.index p (2 : Fin 3) = 0 :=
  (by decide +kernel : ∀ p : Fin grid2.N, _)

/-! ## The staged blocks as rows of the arrays -/

/-- Resident row n of the first array's block at point p is row n of batch p / 2. -/
theorem res0_read (c : Dev nD) (p : Fin cfg2.N) (b : Fin 32) (hb : b.val = p.val / 2) (s : Cert.Spec.A3)
    (hs : ∀ (b : Fin 32) (n : Fin 1024) (d : Fin 768), V c main_v0 (ix3 b n d) = s b n d) (n : Fin 1024) (k : Fin 768) :
    (iblk2 V c 0 p : Vec Ideal S1x1024x768 .bf16) (ix3 0 n k) = s b n k := by
  obtain ⟨e0, e1, e2, -⟩ := idx_facts p
  refine Eq.trans ?_ (hs b n k)
  unfold iblk2
  rw [View.read_apply]
  show V c main_v0 _ = V c main_v0 _
  refine congrArg (V c main_v0) (funext fun a => Fin.ext ?_)
  match a with
  | ⟨0, _⟩ => show win2_0.index p (0 : Fin 3) * 1 + 1 * 0 = b.val; omega
  | ⟨1, _⟩ => show win2_0.index p (1 : Fin 3) * 1024 + 1 * n.val = n.val; omega
  | ⟨2, _⟩ => show win2_0.index p (2 : Fin 3) * 768 + 1 * k.val = k.val; omega

/-- The same for the second array. -/
theorem res1_read (c : Dev nD) (p : Fin cfg2.N) (b : Fin 32) (hb : b.val = p.val / 2) (u : Cert.Spec.A3)
    (hu : ∀ (b : Fin 32) (n : Fin 1024) (d : Fin 768), V c main_v1 (ix3 b n d) = u b n d) (n : Fin 1024) (k : Fin 768) :
    (iblk2 V c 1 p : Vec Ideal S1x1024x768 .bf16) (ix3 0 n k) = u b n k := by
  obtain ⟨-, -, -, e0, e1, e2, -⟩ := idx_facts p
  refine Eq.trans ?_ (hu b n k)
  unfold iblk2
  rw [View.read_apply]
  show V c main_v1 _ = V c main_v1 _
  refine congrArg (V c main_v1) (funext fun a => Fin.ext ?_)
  match a with
  | ⟨0, _⟩ => show win2_1.index p (0 : Fin 3) * 1 + 1 * 0 = b.val; omega
  | ⟨1, _⟩ => show win2_1.index p (1 : Fin 3) * 1024 + 1 * n.val = n.val; omega
  | ⟨2, _⟩ => show win2_1.index p (2 : Fin 3) * 768 + 1 * k.val = k.val; omega

/-- Tile row m' of the first array's tile at point p is row 512 (p % 2) + m' of batch p / 2. -/
theorem tile0_read (c : Dev nD) (p : Fin cfg2.N) (b : Fin 32) (j : Fin 2) (hb : b.val = p.val / 2) (hj : j.val = p.val % 2)
    (s : Cert.Spec.A3) (hs : ∀ (b : Fin 32) (n : Fin 1024) (d : Fin 768), V c main_v0 (ix3 b n d) = s b n d)
    (m' : Fin 512) (k : Fin 768) :
    (iblk2 V c 2 p : Vec Ideal S1x512x768 .bf16) (ix3 0 m' k) = s b (Cert.Spec.col j m') k := by
  obtain ⟨-, -, -, -, -, -, e0, e1, e2, -⟩ := idx_facts p
  refine Eq.trans ?_ (hs b (Cert.Spec.col j m') k)
  unfold iblk2
  rw [View.read_apply]
  show V c main_v0 _ = V c main_v0 _
  refine congrArg (V c main_v0) (funext fun a => Fin.ext ?_)
  match a with
  | ⟨0, _⟩ => show win2_2.index p (0 : Fin 3) * 1 + 1 * 0 = b.val; omega
  | ⟨1, _⟩ => show win2_2.index p (1 : Fin 3) * 512 + 1 * m'.val = 512 * j.val + m'.val; omega
  | ⟨2, _⟩ => show win2_2.index p (2 : Fin 3) * 768 + 1 * k.val = k.val; omega

/-- The same for the second array. -/
theorem tile1_read (c : Dev nD) (p : Fin cfg2.N) (b : Fin 32) (j : Fin 2) (hb : b.val = p.val / 2) (hj : j.val = p.val % 2)
    (u : Cert.Spec.A3) (hu : ∀ (b : Fin 32) (n : Fin 1024) (d : Fin 768), V c main_v1 (ix3 b n d) = u b n d)
    (m' : Fin 512) (k : Fin 768) :
    (iblk2 V c 3 p : Vec Ideal S1x512x768 .bf16) (ix3 0 m' k) = u b (Cert.Spec.col j m') k := by
  obtain ⟨-, -, -, -, -, -, -, -, -, e0, e1, e2, -⟩ := idx_facts p
  refine Eq.trans ?_ (hu b (Cert.Spec.col j m') k)
  unfold iblk2
  rw [View.read_apply]
  show V c main_v1 _ = V c main_v1 _
  refine congrArg (V c main_v1) (funext fun a => Fin.ext ?_)
  match a with
  | ⟨0, _⟩ => show win2_3.index p (0 : Fin 3) * 1 + 1 * 0 = b.val; omega
  | ⟨1, _⟩ => show win2_3.index p (1 : Fin 3) * 512 + 1 * m'.val = 512 * j.val + m'.val; omega
  | ⟨2, _⟩ => show win2_3.index p (2 : Fin 3) * 768 + 1 * k.val = k.val; omega

/-! ## The two accumulations, over any blocks that are those rows -/

/-- Over blocks whose resident rows are batch b's rows and whose tile rows are batch b's rows 512 j + m', the body's
    squared difference at (n, m') is the specification's at (n, 512 j + m'). -/
theorem dsqB_eq (xs xt : Vec Ideal S1x1024x768 .bf16) (ks kt : Vec Ideal S1x512x768 .bf16) (s u : Cert.Spec.A3)
    (b : Fin 32) (j : Fin 2)
    (h0 : ∀ (n : Fin 1024) (k : Fin 768), xs (ix3 0 n k) = s b n k) (h1 : ∀ (n : Fin 1024) (k : Fin 768), xt (ix3 0 n k) = u b n k)
    (h2 : ∀ (m' : Fin 512) (k : Fin 768), ks (ix3 0 m' k) = s b (Cert.Spec.col j m') k)
    (h3 : ∀ (m' : Fin 512) (k : Fin 768), kt (ix3 0 m' k) = u b (Cert.Spec.col j m') k) (n : Fin 1024) (m' : Fin 512) :
    dsqB xs xt ks kt n m' = Cert.Spec.dsq s u b n (Cert.Spec.col j m') := by
  unfold dsqB Cert.Spec.dsq Cert.Spec.gram
  simp only [h0, h1, h2, h3]

/-- The accumulation on the first tile's blocks from the zero block, then on the second tile's, reads batch b's lane
    value at every index. -/
theorem two_steps (xs0 xt0 xs1 xt1 : Vec Ideal S1x1024x768 .bf16) (ks0 kt0 ks1 kt1 : Vec Ideal S1x512x768 .bf16)
    (s u : Cert.Spec.A3) (b : Fin 32)
    (hxs0 : ∀ (n : Fin 1024) (k : Fin 768), xs0 (ix3 0 n k) = s b n k) (hxt0 : ∀ (n : Fin 1024) (k : Fin 768), xt0 (ix3 0 n k) = u b n k)
    (hxs1 : ∀ (n : Fin 1024) (k : Fin 768), xs1 (ix3 0 n k) = s b n k) (hxt1 : ∀ (n : Fin 1024) (k : Fin 768), xt1 (ix3 0 n k) = u b n k)
    (hks0 : ∀ (m' : Fin 512) (k : Fin 768), ks0 (ix3 0 m' k) = s b (Cert.Spec.col 0 m') k)
    (hkt0 : ∀ (m' : Fin 512) (k : Fin 768), kt0 (ix3 0 m' k) = u b (Cert.Spec.col 0 m') k)
    (hks1 : ∀ (m' : Fin 512) (k : Fin 768), ks1 (ix3 0 m' k) = s b (Cert.Spec.col 1 m') k)
    (hkt1 : ∀ (m' : Fin 512) (k : Fin 768), kt1 (ix3 0 m' k) = u b (Cert.Spec.col 1 m') k)
    (i : S1x8x128.Idx) :
    k2_pay2 (F := Ideal) xs1 xt1 ks1 kt1 (k2_pay2 (F := Ideal) xs0 xt0 ks0 kt0 (k2_pay1 (F := Ideal))) i = Cert.Spec.laneVal s u b := by
  rw [pay2_apply, pay2_apply, pay1_apply]
  unfold Cert.Spec.laneVal Cert.Spec.tile
  simp only [dsqB_eq xs0 xt0 ks0 kt0 s u b 0 hxs0 hxt0 hks0 hkt0, dsqB_eq xs1 xt1 ks1 kt1 s u b 1 hxs1 hxt1 hks1 hkt1]

/-! ## The output block after an odd point -/

/-- The recursion's value does not depend on how its position is written. -/
theorem outsAt2_irrel (c : Dev nD) {n n' : ℕ} (e : n = n') (h : n < cfg2.N) (h' : n' < cfg2.N) :
    outsAt2 V c n h = outsAt2 V c n' h' := by
  subst e; rfl

/-- After an odd point p, with q the point before: the accumulation at q on the zero block, then the one at p. -/
theorem outs_odd_eq (c : Dev nD) (p q : Fin cfg2.N) (hp : p.val % 2 = 1) (hq : q.val + 1 = p.val) :
    outsAt2 V c p.val p.isLt = k2_pay2 (F := Ideal) (iblk2 V c 0 p) (iblk2 V c 1 p) (iblk2 V c 2 p) (iblk2 V c 3 p)
      (k2_pay2 (F := Ideal) (iblk2 V c 0 q) (iblk2 V c 1 q) (iblk2 V c 2 q) (iblk2 V c 3 q) (k2_pay1 (F := Ideal))) := by
  refine (outsAt2_odd V c p hp).trans ?_
  refine congrArg (k2_pay2 (F := Ideal) (iblk2 V c 0 p) (iblk2 V c 1 p) (iblk2 V c 2 p) (iblk2 V c 3 p)) ?_
  exact (outsAt2_irrel V c (by omega) _ q.isLt).trans (outsAt2_even V c q (by omega))

/-- After the odd point of batch b the output block holds batch b's lane value at every index. -/
theorem lane_block (c : Dev nD) (s u : Cert.Spec.A3)
    (hs : ∀ (b : Fin 32) (n : Fin 1024) (d : Fin 768), V c main_v0 (ix3 b n d) = s b n d)
    (hu : ∀ (b : Fin 32) (n : Fin 1024) (d : Fin 768), V c main_v1 (ix3 b n d) = u b n d)
    (p : Fin cfg2.N) (hp : p.val % 2 = 1) (b : Fin 32) (hb : b.val = p.val / 2) (i : S1x8x128.Idx) :
    outsAt2 V c p.val p.isLt i = Cert.Spec.laneVal s u b := by
  obtain ⟨q, hq⟩ : ∃ q : Fin cfg2.N, q.val + 1 = p.val :=
    ⟨⟨p.val - 1, Nat.lt_of_le_of_lt (Nat.sub_le _ _) p.isLt⟩, by show p.val - 1 + 1 = p.val; omega⟩
  have hbq : b.val = q.val / 2 := by omega
  have hj0 : (0 : Fin 2).val = q.val % 2 := by show 0 = q.val % 2; omega
  have hj1 : (1 : Fin 2).val = p.val % 2 := by show 1 = p.val % 2; omega
  refine (congrFun (outs_odd_eq V c p q hp hq) i).trans ?_
  exact two_steps (iblk2 V c 0 q) (iblk2 V c 1 q) (iblk2 V c 0 p) (iblk2 V c 1 p) (iblk2 V c 2 q) (iblk2 V c 3 q) (iblk2 V c 2 p) (iblk2 V c 3 p) s u b
    (res0_read V c q b hbq s hs) (res1_read V c q b hbq u hu) (res0_read V c p b hb s hs) (res1_read V c p b hb u hu)
    (tile0_read V c q b 0 hbq hj0 s hs) (tile1_read V c q b 0 hbq hj0 u hu)
    (tile0_read V c p b 1 hb hj1 s hs) (tile1_read V c p b 1 hb hj1 u hu) i

/-! ## From the blocks to the array -/

/-- What an odd point p writes back is block p of the array that holds, at (b, r, l), batch b's lane value. -/
theorem flushed_eq (c : Dev nD) (s u : Cert.Spec.A3)
    (hs : ∀ (b : Fin 32) (n : Fin 1024) (d : Fin 768), V c main_v0 (ix3 b n d) = s b n d)
    (hu : ∀ (b : Fin 32) (n : Fin 1024) (d : Fin 768), V c main_v1 (ix3 b n d) = u b n d)
    (p : Fin cfg2.N) (hf : (cfg2.win 4).flush p = true) :
    (dat2 (F := Ideal) V c).flushed 4 p
      = ((cfg2.win 4).blk p).view.read (Elt Ideal) (fun i : S32x8x128.Idx => Cert.Spec.laneVal s u (i 0)) := by
  have hp : p.val % 2 = 1 := (flush2_4 p).mp hf
  have hN : cfg2.N = 64 := N_2
  have hlt : p.val < cfg2.N := p.isLt
  obtain ⟨-, -, -, -, -, -, -, -, -, -, -, -, e0, e1, e2⟩ := idx_facts p
  show (cfg2.win 4).cut (grid2.coords p) ((dat2 (F := Ideal) V c).after 4 p) = _
  rw [after2_4]
  funext y
  refine (lane_block V c s u hs hu p hp ⟨p.val / 2, by omega⟩ rfl _).trans ?_
  show Cert.Spec.laneVal s u _ = Cert.Spec.laneVal s u ((((cfg2.win 4).blk p).view.emb y) 0)
  refine congrArg (Cert.Spec.laneVal s u) (Fin.ext ?_)
  show p.val / 2 = win2_4.index p (0 : Fin 3) * 1 + 1 * (y 0).val
  have hy : (y 0).val < 1 := (y 0).isLt
  omega

/-- An index of the array is in point p's block iff each coordinate is in the block's range on its axis. -/
theorem mem_blk4 (p : Fin cfg2.N) (i : S32x8x128.Idx) :
    i ∈ ((cfg2.win 4).blk p).view.set ↔ ∀ a : Fin 3, win2_4.index p a * S1x8x128.size a ≤ (i a).val ∧ (i a).val < win2_4.index p a * S1x8x128.size a + S1x8x128.size a := by
  show i ∈ ((View.whole main_v2).slice (win2_4.rect p)).set ↔ _
  rw [View.set_slice_whole, Rect.mem_set_unit]
  exact Iff.rfl

/-- Every index (b, r, l) of the array is in the block of the odd point 2 b + 1. -/
theorem covered (i : S32x8x128.Idx) :
    ∃ p : Fin cfg2.N, (cfg2.win 4).flush p = true ∧ i ∈ ((cfg2.win 4).blk p).view.set := by
  have hN : cfg2.N = 64 := N_2
  have h0 : (i 0).val < 32 := (i 0).isLt
  have h1 : (i 1).val < 8 := (i 1).isLt
  have h2 : (i 2).val < 128 := (i 2).isLt
  obtain ⟨p, hp⟩ : ∃ p : Fin cfg2.N, p.val = 2 * (i 0).val + 1 := ⟨⟨2 * (i 0).val + 1, by omega⟩, rfl⟩
  obtain ⟨-, -, -, -, -, -, -, -, -, -, -, -, e0, e1, e2⟩ := idx_facts p
  refine ⟨p, (flush2_4 p).mpr (by omega), ?_⟩
  rw [mem_blk4]
  intro a
  match a with
  | ⟨0, _⟩ => show win2_4.index p (0 : Fin 3) * 1 ≤ (i 0).val ∧ (i 0).val < win2_4.index p (0 : Fin 3) * 1 + 1; omega
  | ⟨1, _⟩ => show win2_4.index p (1 : Fin 3) * 8 ≤ (i 1).val ∧ (i 1).val < win2_4.index p (1 : Fin 3) * 8 + 8; omega
  | ⟨2, _⟩ => show win2_4.index p (2 : Fin 3) * 128 ≤ (i 2).val ∧ (i 2).val < win2_4.index p (2 : Fin 3) * 128 + 128; omega

/-- The output array after the run holds, at index (b, r, l), batch b's lane value. -/
theorem gram_final (c : Dev nD) (s t : Cert.Spec.A3)
    (hs : ∀ (b : Fin 32) (n : Fin 1024) (d : Fin 768), V c main_v0 (ix3 b n d) = s b n d)
    (ht : ∀ (b : Fin 32) (n : Fin 1024) (d : Fin 768), V c main_v1 (ix3 b n d) = t b n d) :
    (dat2 (F := Ideal) V c).arrAt 4 cfg2.N = fun i => Cert.Spec.laneVal s t (i 0) :=
  (dat2 (F := Ideal) V c).arrAt_eq_of_cover 4 (fun i : S32x8x128.Idx => Cert.Spec.laneVal s t (i 0))
    (fun p hf => flushed_eq V c s t hs ht p hf) covered

end Cert.KernelIdeal.Val

end
-- ==== Proof.Tail.lean ====
/- The host's tail of the kernel program: after the three kernels, the lanes of the f32[32,8,128] array are
   summed (from the initial value 0) and the total is divided by the count. Read at the result's one index
   this is the triple sum over the array's coordinates, divided by the count. -/
import proofs.«171448_j24077586661772_1_alg».proof.Proof.Gen.KernelIdeal.Launch
import proofs.«171448_j24077586661772_1_alg».proof.Proof.Spec
import Idealize.ShloMosaic.Lib.StableHlo.Run
import Idealize.ShloMosaic.Lib.ValueIdx
import Idealize.ShloMosaic.PureOps.Ideal.Laws

noncomputable section

open scoped BigOperators

namespace Cert.KernelIdeal.Val

open Cert.KernelIdeal Cert.KernelIdeal.Gen Idealize.ShloMosaic Idealize.ShloMosaic.ValueIdx Idealize.ShloMosaic.StableHlo
open Idealize.ShloMosaic.TcCoe

/-! ## A sum over a rank-3 index set is the triple sum over the coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The host's tail -/

/-- The host's sum of every lane, from the initial value 0, is the triple sum over the coordinates. -/
theorem lanes_sum (y : (⟨S32x8x128, .f32⟩ : BufTy).Contents (Elt Ideal)) (i : S_.Idx) :
    Host.reduceAdd (F := Ideal) y (constant (F := Ideal) S_ .f32 0x00000000#32) reducesTo_S32x8x128_S_d0_1_2 h_S_ i
      = ∑ b : Fin 32, ∑ r : Fin 8, ∑ l : Fin 128, y (ix3 b r l) := by
  simp only [Host.reduceAdd, Ideal.hostReduceAdd_def]
  rw [Ideal.hostReduceAdd_total reducesTo_S32x8x128_S_d0_1_2 (fun b => b.elim0) y _ i, sum_idx3]
  simp only [constant_apply, Ideal.ofBits_zero_f32, zero_add]

/-- What the program's result buffer holds after the host's four operations, from any contents `W` of the
    device's buffers: the sum of every lane of the kernels' output array, divided by the count. -/
theorem tail_value (W : Valuation τ sig (Elt Ideal)) (i : S_.Idx) :
    (StableHlo.after hostOps3 W) main_v4 i
      = Ideal.div (∑ b : Fin 32, ∑ r : Fin 8, ∑ l : Fin 128, W main_v2 (ix3 b r l)) Cert.Spec.cnt := by
  dsimp only [hostOps3]
  after_results
  exact congrArg (fun s => Ideal.div s Cert.Spec.cnt) (lanes_sum (W (Proc.devRef .tc main_v2)) i)

end Cert.KernelIdeal.Val

end
-- ==== Proof.SpecLaw.lean ====
/- The law joining the kernel's tiled sum to the reference's flat sum, on the extended reals.

   Every summand is a square d * d, which is nonnegative for every extended real d, and on nonnegative
   extended reals multiplication distributes over addition. So a lane value (0 + a0 * c) + a1 * c is
   (a0 + a1) * c, and 8 * 128 = 1024 equal lanes sum to (a0 + a1) * (1024 * c); the scale c denotes 2^-10, so
   1024 * c = 1 and the lanes of a batch sum to a0 + a1, the two tile totals. The two tiles of a batch
   split the 1024 columns into the halves [0, 512) and [512, 1024), so their totals add up to the batch's
   whole sum. No finiteness is used anywhere: sums of extended reals regroup freely. -/
import proofs.«171448_j24077586661772_1_alg».proof.Proof.Spec
import Mathlib.Data.EReal.Basic
import Mathlib.Data.EReal.Operations
import Mathlib.Algebra.BigOperators.Fin
import Mathlib.Algebra.Order.BigOperators.Group.Finset

noncomputable section

namespace Cert.Spec

open Idealize.ShloMosaic

/-! ## Squares and tile totals are nonnegative -/

/-- A square of an extended real is nonnegative: both factors have the same sign. -/
theorem mul_self_nonneg_ereal (d : EReal) : 0 ≤ d * d := by
  rcases le_total 0 d with h | h
  · exact EReal.mul_nonneg h h
  · exact EReal.mul_nonneg_iff.mpr (Or.inr ⟨h, h⟩)

theorem dsq_nonneg (s t : A3) (b : Fin 32) (n m : Fin 1024) : 0 ≤ dsq s t b n m :=
  mul_self_nonneg_ereal _

theorem tile_nonneg (s t : A3) (b : Fin 32) (j : Fin 2) : 0 ≤ tile s t b j :=
  Finset.sum_nonneg fun n _ => Finset.sum_nonneg fun m' _ => dsq_nonneg s t b n (col j m')

/-! ## The scale is 2^-10, and the 1024 lanes undo it -/

/-- The word 0x3A800000 has sign 0, exponent field 117 and fraction 0: it denotes 2^(117-127) = 1/1024. -/
theorem lane_eq : lane = ((1 / 1024 : ℝ) : EReal) := by
  simp [lane, Ideal.ofBits, Ideal.ieee, -EReal.coe_mul]; norm_num

/-- The lane count times the scale is one. -/
theorem card_mul_lane : ((8 * 128 : ℕ) : EReal) * lane = 1 := by
  rw [lane_eq, ← EReal.coe_coe_eq_natCast, ← EReal.coe_mul, ← EReal.coe_one]
  congr 1; norm_num

/-- The 8 * 128 equal lanes of a batch, each the two scaled tile totals accumulated from zero, sum to the
    two totals themselves. -/
theorem lanes_sum (a0 a1 : EReal) (h0 : 0 ≤ a0) (h1 : 0 ≤ a1) :
    (∑ _r : Fin 8, ∑ _l : Fin 128, ((0 + a0 * lane) + a1 * lane)) = a0 + a1 := by
  rw [zero_add, ← EReal.right_distrib_of_nonneg h0 h1]
  simp only [Finset.sum_const, Finset.card_univ, Fintype.card_fin]
  rw [← mul_nsmul, EReal.nsmul_eq_mul, mul_left_comm, card_mul_lane, mul_one]

/-! ## The two halves of the columns -/

/-- A sum over the 1024 columns is the sum over the first half plus the sum over the second half. -/
theorem sum_cols (f : Fin 1024 → EReal) :
    (∑ m : Fin 1024, f m) = (∑ m' : Fin 512, f (col 0 m')) + ∑ m' : Fin 512, f (col 1 m') := by
  refine (Fin.sum_univ_add (a := 512) (b := 512) f).trans ?_
  congr 1 <;> exact Finset.sum_congr rfl fun m' _ => congrArg f (Fin.ext (by simp [col]))

/-- The two tile totals of a batch add up to the batch's whole sum. -/
theorem tile_add (s t : A3) (b : Fin 32) :
    tile s t b 0 + tile s t b 1 = ∑ n : Fin 1024, ∑ m : Fin 1024, dsq s t b n m := by
  unfold tile
  rw [← Finset.sum_add_distrib]
  exact Finset.sum_congr rfl fun n _ => (sum_cols fun m => dsq s t b n m).symm

/-! ## The law -/

/-- The kernel's value is the reference's: batch by batch the lanes sum to the two tile totals, which add up
    to the batch's sum of squared differences. -/
theorem kerVal_eq_refVal (x y : A3) : kerVal x y = refVal x y := by
  unfold kerVal refVal
  congr 1
  refine Finset.sum_congr rfl fun b _ => ?_
  unfold laneVal
  rw [lanes_sum _ _ (tile_nonneg _ _ b 0) (tile_nonneg _ _ b 1), tile_add]

end Cert.Spec

end
-- ==== Proof.KernelValue.lean ====
/- The idealised kernel's result as a formula. After the run the scalar result buffer holds the host tail applied
   to the lane blocks region 2 leaves; those are, per batch, the lane value of the two normalised arrays that
   regions 0 and 1 leave; so the result is the specification's `kerVal` of the two inputs, which is the
   reference's `refVal` by the law that the 1024 replicated lanes undo the 2^-10 scale. -/
import proofs.«171448_j24077586661772_1_alg».proof.Proof.MainRun
import proofs.«171448_j24077586661772_1_alg».proof.Proof.NormValue
import proofs.«171448_j24077586661772_1_alg».proof.Proof.GramValue
import proofs.«171448_j24077586661772_1_alg».proof.Proof.Tail
import proofs.«171448_j24077586661772_1_alg».proof.Proof.SpecLaw

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem

variable (m : (ℓ : Loc nD τ sig) → Buf (Elt Ideal) ℓ)

/-- The two inputs on core `c`, as functions of typed indices. -/
abbrev inS (c : Dev nD) : Cert.Spec.A3 := curry3 (m ((c : Thread nD τ).loc main_arg0))
abbrev inT (c : Dev nD) : Cert.Spec.A3 := curry3 (m ((c : Thread nD τ).loc main_arg1))

/-- Region 2 is entered with the normalised student rows in `main_v0`: region 0 left them there and region 1
    does not write that array. -/
theorem entry2_v0 (c : Dev nD) (b : Fin 32) (n : Fin 1024) (d : Fin 768) :
    E2 m c main_v0 (ix3 b n d) = Cert.Spec.nrm (inS m c) b n d := by
  have h : E2 m c main_v0 = (dat0 (F := Ideal) (E0 m) c).arrAt 1 cfg0.N :=
    (W2_of_ne m c main_v0 (by decide)).trans (W1_self m c)
  rw [h, norm0_final]
  rfl

/-- and with the normalised teacher rows in `main_v1`: region 1 read the teacher input as launched. -/
theorem entry2_v1 (c : Dev nD) (b : Fin 32) (n : Fin 1024) (d : Fin 768) :
    E2 m c main_v1 (ix3 b n d) = Cert.Spec.nrm (inT m c) b n d := by
  have h : E2 m c main_v1 = (dat1 (F := Ideal) (E1 m) c).arrAt 1 cfg1.N := W2_self m c
  have hin : E1 m c main_arg1 = m ((c : Thread nD τ).loc main_arg1) := W1_of_ne m c main_arg1 (by decide)
  rw [h, norm1_final]
  unfold inT curry3
  rw [hin]
  rfl

/-- The result buffer after the run, at its one index. -/
theorem kernel_value (c : Dev nD) (i : S_.Idx) :
    W4 m c main_v4 i = Cert.Spec.refVal (inS m c) (inT m c) := by
  rw [← Cert.Spec.kerVal_eq_refVal]
  unfold Cert.Spec.kerVal
  rw [show W4 m c main_v4 i = (StableHlo.after hostOps3 (W3 m c)) main_v4 i from rfl, tail_value]
  refine congrArg (fun z => Ideal.div z Cert.Spec.cnt) ?_
  refine Finset.sum_congr rfl fun b _ => Finset.sum_congr rfl fun r _ => Finset.sum_congr rfl fun l _ => ?_
  rw [show W3 m c main_v2 = (dat2 (F := Ideal) (E2 m) c).arrAt 4 cfg2.N from W3_self m c,
    gram_final (E2 m) c (Cert.Spec.nrm (inS m c)) (Cert.Spec.nrm (inT m c)) (entry2_v0 m c) (entry2_v1 m c)]
  rfl

end Cert.KernelIdeal.Val

end
-- ==== Proof.RefImports.lean ====
/- The reference program's run, read back one operation at a time: the two modules every
   statement about the reference's result is made over. -/
import proofs.«171448_j24077586661772_1_alg».proof.Proof.Gen.ReferenceIdeal.Run
import proofs.«171448_j24077586661772_1_alg».proof.Proof.Gen.ReferenceIdeal.Read
-- ==== Proof.RefValue.lean ====
/- The reference's result is the specification's `refVal`.

   The reference, read one operation at a time, normalises every row of each input by max(sqrt(sum of
   squares), eps), takes per batch the Gram matrix of the normalised rows, clamps it below at 0, squares the
   difference of the two clamped matrices, sums every entry and divides by the count. Each stage read at an
   index built from coordinates is the specification's formula at those coordinates; the last sum, over the
   rank-3 index set, is the triple sum over the coordinates. -/
import proofs.«171448_j24077586661772_1_alg».proof.Proof.RefImports
import proofs.«171448_j24077586661772_1_alg».proof.Proof.Spec
import Idealize.ShloMosaic.Lib.ValueIdx
import Idealize.ShloMosaic.PureOps.Ideal.Laws

noncomputable section

open scoped BigOperators

namespace Cert.ReferenceIdeal.RefVal

open Cert.ReferenceIdeal Cert.ReferenceIdeal.Read Idealize.ShloMosaic Idealize.ShloMosaic.ValueIdx

/-- An input array of the reference. -/
abbrev Arr : Type := (⟨S32x1024x768, .f32⟩ : BufTy).Contents (Elt Ideal)

/-- An input array as a function of its three coordinates. -/
abbrev cur (x : Arr) : Cert.Spec.A3 := fun b n d => x (ix3 b n d)

/-! ## The index functions of the layout operations, at indices built from coordinates -/

theorem idx_v1 (b : Fin 32) (n : Fin 1024) (k : Fin 768) : idx_main_v1 (ix2 b n) k = ix3 b n k :=
  funext fun a => Fin.ext (by match a with | ⟨0, _⟩ => rfl | ⟨1, _⟩ => rfl | ⟨2, _⟩ => rfl)
theorem idx_v2 (b : Fin 32) (n : Fin 1024) (z : Fin 1) : idx_main_v2 (ix3 b n z) = ix2 b n :=
  funext fun a => Fin.ext (by match a with | ⟨0, _⟩ => rfl | ⟨1, _⟩ => rfl)
theorem idx_v6 (b : Fin 32) (n : Fin 1024) (d : Fin 768) : idx_main_v6 (ix3 b n d) = ix3 b n (0 : Fin 1) :=
  funext fun a => Fin.ext (by match a with | ⟨0, _⟩ => rfl | ⟨1, _⟩ => rfl | ⟨2, _⟩ => rfl)
theorem idx_v9 (b : Fin 32) (n : Fin 1024) (k : Fin 768) : idx_main_v9 (ix2 b n) k = ix3 b n k :=
  funext fun a => Fin.ext (by match a with | ⟨0, _⟩ => rfl | ⟨1, _⟩ => rfl | ⟨2, _⟩ => rfl)
theorem idx_v10 (b : Fin 32) (n : Fin 1024) (z : Fin 1) : idx_main_v10 (ix3 b n z) = ix2 b n :=
  funext fun a => Fin.ext (by match a with | ⟨0, _⟩ => rfl | ⟨1, _⟩ => rfl)
theorem idx_v14 (b : Fin 32) (n : Fin 1024) (d : Fin 768) : idx_main_v14 (ix3 b n d) = ix3 b n (0 : Fin 1) :=
  funext fun a => Fin.ext (by match a with | ⟨0, _⟩ => rfl | ⟨1, _⟩ => rfl | ⟨2, _⟩ => rfl)
theorem lidx_v16 (b : Fin 32) (n m : Fin 1024) (k : Fin 768) : lidx_main_v16 (ix3 b n m) k = ix3 b n k :=
  funext fun a => Fin.ext (by match a with | ⟨0, _⟩ => rfl | ⟨1, _⟩ => rfl | ⟨2, _⟩ => rfl)
theorem ridx_v16 (b : Fin 32) (n m : Fin 1024) (k : Fin 768) : ridx_main_v16 (ix3 b n m) k = ix3 b m k :=
  funext fun a => Fin.ext (by match a with | ⟨0, _⟩ => rfl | ⟨1, _⟩ => rfl | ⟨2, _⟩ => rfl)
theorem lidx_v17 (b : Fin 32) (n m : Fin 1024) (k : Fin 768) : lidx_main_v17 (ix3 b n m) k = ix3 b n k :=
  funext fun a => Fin.ext (by match a with | ⟨0, _⟩ => rfl | ⟨1, _⟩ => rfl | ⟨2, _⟩ => rfl)
theorem ridx_v17 (b : Fin 32) (n m : Fin 1024) (k : Fin 768) : ridx_main_v17 (ix3 b n m) k = ix3 b m k :=
  funext fun a => Fin.ext (by match a with | ⟨0, _⟩ => rfl | ⟨1, _⟩ => rfl | ⟨2, _⟩ => rfl)

/-! ## The normalised inputs -/

/-- The clamped norm of row (b, n) of the first input. -/
theorem v5_eq (x0 : Arr) (b : Fin 32) (n : Fin 1024) :
    val_main_v5 (F := Ideal) x0 (ix3 b n (0 : Fin 1)) = Cert.Spec.rowNorm (cur x0) b n := by
  rw [val_main_v5_apply, val_main_v3_apply, val_main_v2_apply, idx_v2, val_main_v1_apply, val_main_cst_apply,
    val_main_v4_apply, val_main_cst_0_apply]
  simp only [val_main_v0_apply, idx_v1, Ideal.mulf_def, Ideal.hostUnary_sqrt_def, Ideal.maximumf_def, Ideal.ofBits_def,
    Ideal.ofBits_zero_f32, zero_add]
  rfl

/-- The first input, normalised. -/
theorem v7_eq (x0 : Arr) (b : Fin 32) (n : Fin 1024) (d : Fin 768) :
    val_main_v7 (F := Ideal) x0 (ix3 b n d) = Cert.Spec.nrm (cur x0) b n d := by
  rw [val_main_v7_apply, val_main_v6_apply, idx_v6, v5_eq, Ideal.hostDivf_def]
  rfl

/-- The clamped norm of row (b, n) of the second input. -/
theorem v13_eq (x1 : Arr) (b : Fin 32) (n : Fin 1024) :
    val_main_v13 (F := Ideal) x1 (ix3 b n (0 : Fin 1)) = Cert.Spec.rowNorm (cur x1) b n := by
  rw [val_main_v13_apply, val_main_v11_apply, val_main_v10_apply, idx_v10, val_main_v9_apply, val_main_cst_1_apply,
    val_main_v12_apply, val_main_cst_2_apply]
  simp only [val_main_v8_apply, idx_v9, Ideal.mulf_def, Ideal.hostUnary_sqrt_def, Ideal.maximumf_def, Ideal.ofBits_def,
    Ideal.ofBits_zero_f32, zero_add]
  rfl

/-- The second input, normalised. -/
theorem v15_eq (x1 : Arr) (b : Fin 32) (n : Fin 1024) (d : Fin 768) :
    val_main_v15 (F := Ideal) x1 (ix3 b n d) = Cert.Spec.nrm (cur x1) b n d := by
  rw [val_main_v15_apply, val_main_v14_apply, idx_v14, v13_eq, Ideal.hostDivf_def]
  rfl

/-! ## The Gram matrices and the squared difference -/

/-- Entry (n, m) of batch b's Gram matrix of the first normalised input. -/
theorem v16_eq (x0 : Arr) (b : Fin 32) (n m : Fin 1024) :
    val_main_v16 (F := Ideal) x0 (ix3 b n m) = Cert.Spec.gram (Cert.Spec.nrm (cur x0)) b n m := by
  rw [val_main_v16_apply]
  simp only [lidx_v16, ridx_v16, v7_eq]
  rfl

/-- Entry (n, m) of batch b's Gram matrix of the second normalised input. -/
theorem v17_eq (x1 : Arr) (b : Fin 32) (n m : Fin 1024) :
    val_main_v17 (F := Ideal) x1 (ix3 b n m) = Cert.Spec.gram (Cert.Spec.nrm (cur x1)) b n m := by
  rw [val_main_v17_apply]
  simp only [lidx_v17, ridx_v17, v15_eq]
  rfl

/-- The squared difference of the two Gram entries clamped below at 0. -/
theorem v23_eq (x0 x1 : Arr) (b : Fin 32) (n m : Fin 1024) :
    val_main_v23 (F := Ideal) x0 x1 (ix3 b n m)
      = Cert.Spec.dsq (Cert.Spec.nrm (cur x0)) (Cert.Spec.nrm (cur x1)) b n m := by
  rw [val_main_v23_apply, val_main_v22_apply, val_main_v19_apply, val_main_v21_apply, val_main_v18_apply,
    val_main_v20_apply, val_main_cst_3_apply, val_main_cst_4_apply, v16_eq, v17_eq]
  simp only [Ideal.mulf_def, Ideal.subf_def, Ideal.maximumf_def, Ideal.ofBits_def, Ideal.ofBits_zero_f32]
  rfl

/-! ## A sum over a rank-3 index set is the triple sum over the coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The result -/

/-- The reference's result: the sum of every squared difference, divided by the count. -/
theorem ref_result (x0 x1 : (⟨S32x1024x768, .f32⟩ : BufTy).Contents (Elt Ideal)) (i : S_.Idx) :
    val_main_v25 (F := Ideal) x0 x1 i
      = Cert.Spec.refVal (fun b n d => x0 (ix3 b n d)) (fun b n d => x1 (ix3 b n d)) := by
  rw [val_main_v25_apply, val_main_v24_apply, val_main_cst_5_apply, val_main_cst_6_apply, sum_idx3]
  simp only [v23_eq, Ideal.hostDivf_def, Ideal.ofBits_def, Ideal.ofBits_zero_f32, zero_add]
  rfl

end Cert.ReferenceIdeal.RefVal

end
-- ==== Proof.lean ====
/- The certificate: the kernel (two row-normalisation calls, then a tiled Gram-difference call accumulating per
   batch, then a host sum and a division) against the reference (the same mean squared difference of clamped
   Gram matrices, computed flat on the host).

   Frames. The word-level kernel and its idealisation run as three pipelined regions and four host operations;
   each region's body is run symbolically once per control case, and the launch threads the buffers' contents
   through the regions, so every execution terminates, faults nowhere and ends with both inputs unchanged. The
   reference is a straight line of host operations.

   Values, on the extended reals. Regions 0 and 1 leave each row of an input divided by max(norm, eps); region 2
   leaves in every lane of batch b's [8,128] block (tile(b,0) + tile(b,1)) * 2^-10 built up over its two tiles,
   a tile being the sum over 1024 rows and 512 columns of the squared difference of the clamped Gram entries;
   the host sums the 1024 lanes of each of the 32 blocks and divides by 2^25. Squares are nonnegative, sums of
   nonnegatives distribute, and 1024 * 2^-10 = 1, so this is the reference's flat sum divided by 2^25. No
   finiteness of the inputs is used. -/
import proofs.«171448_j24077586661772_1_alg».proof.Defs
import proofs.«171448_j24077586661772_1_alg».proof.Proof.Gen.Kernel
import proofs.«171448_j24077586661772_1_alg».proof.Proof.Gen.KernelIdeal
import proofs.«171448_j24077586661772_1_alg».proof.Proof.Gen.ReferenceIdeal
import proofs.«171448_j24077586661772_1_alg».proof.Proof.Gen.Pre_finite_inputs
import proofs.«171448_j24077586661772_1_alg».proof.Proof.BitsMainRun
import proofs.«171448_j24077586661772_1_alg».proof.Proof.KernelValue
import proofs.«171448_j24077586661772_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its inputs as they were. -/
theorem frame_k [Cert.Kernel.Facts] [Cert.Pre_finite_inputs.Facts] : Cert.frame_Kernel :=
  fun m ρ _ => Cert.Kernel.Reg.frame m ρ

/-- So does its idealisation. -/
theorem frame_ki [Cert.KernelIdeal.Facts] [Cert.Pre_finite_inputs.Facts] : Cert.frame_KernelIdeal :=
  fun m ρ _ => Cert.KernelIdeal.Reg.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealised programs end with the same scalar: the kernel's tiled, scaled and replicated sum is the
    reference's flat sum. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Reg.W4 m c Cert.KernelIdeal.main_v4, ?_, ?_⟩
  · exact (θ_run Cert.KernelIdeal.defs _ _).mono (fun _ h c =>
      ⟨h c _ (Cert.KernelIdeal.Reg.mem_uc Cert.KernelIdeal.main_v4 (by decide)),
       (h c _ (Cert.KernelIdeal.Reg.mem_uc Cert.KernelIdeal.main_arg0 (by decide))).trans (Cert.KernelIdeal.Reg.W4_main_arg0 m c),
       (h c _ (Cert.KernelIdeal.Reg.mem_uc Cert.KernelIdeal.main_arg1 (by decide))).trans (Cert.KernelIdeal.Reg.W4_main_arg1 m c)⟩)
      (Cert.KernelIdeal.Reg.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2]
    funext i
    rw [Cert.ReferenceIdeal.RefVal.ref_result]
    exact (Cert.KernelIdeal.Val.kernel_value m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
